-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x11 : Shape := ⟨2, ![4194304, 11]⟩
abbrev S4194304 : Shape := ⟨1, ![4194304]⟩
abbrev S_ : Shape := ⟨0, ![]⟩

class Facts : Prop where
  bcast_S_S4194304x11 : S_.BroadcastsInDim S4194304x11 (![] : Fin 0 → Fin S4194304x11.rank)
  reducesTo_S4194304x11_S_d0_1 : S4194304x11.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x11 .f32) (main_arg1 : IVec S4194304 32) : IVec S_ 1 :=
  let main_v0 : FVec F S4194304x11 .f32 := Host.absf main_arg0
  let main_cst : FVec F S_ .f32 := constant S_ .f32 0x7F800000#32
  let main_v1 : FVec F S4194304x11 .f32 := broadcastInDim S4194304x11 ![] bcast_S_S4194304x11 main_cst
  let main_v2 : IVec S4194304x11 1 := cmpf .olt main_v0 main_v1
  let main_c : IVec S_ 1 := constantI S_ 1 1#1
  let main_v3 : IVec S_ 1 := (fun x v => Host.reduce IntOp.andi x v reducesTo_S4194304x11_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 32 := constantI S_ 32 11#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  main_v10
-- ==== Kernel.lean ====
abbrev S4194304x11 : Shape := ⟨2, ![4194304, 11]⟩
abbrev S4194304 : Shape := ⟨1, ![4194304]⟩
abbrev S11x4194304 : Shape := ⟨2, ![11, 4194304]⟩
abbrev S1x4194304 : Shape := ⟨2, ![1, 4194304]⟩
abbrev S2x8x128 : Shape := ⟨3, ![2, 8, 128]⟩
abbrev S11x65536 : Shape := ⟨2, ![11, 65536]⟩
abbrev S1x65536 : Shape := ⟨2, ![1, 65536]⟩
abbrev S1x8x128 : Shape := ⟨3, ![1, 8, 128]⟩
abbrev S1x1 : Shape := ⟨2, ![1, 1]⟩
abbrev S65536 : Shape := ⟨1, ![65536]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4194304x11, .f32⟩
  | .hbm, ⟨1, _⟩ => ⟨S4194304, .i32⟩
  | .hbm, ⟨2, _⟩ => ⟨S11x4194304, .f32⟩
  | .hbm, ⟨3, _⟩ => ⟨S1x4194304, .i32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .local _ .vmem, ⟨0, _⟩ => ⟨S11x65536, .f32⟩
  | .local _ .vmem, ⟨1, _⟩ => ⟨S11x65536, .f32⟩
  | .local _ .vmem, ⟨2, _⟩ => ⟨S1x65536, .i32⟩
  | .local _ .vmem, ⟨3, _⟩ => ⟨S1x65536, .i32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S4194304x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v72 : BitVec 1 := Scalar.cmpi .eq arg1 c31_i32
  let v73 : BitVec 32 := Scalar.extui v72
  let c0_i32_25 : BitVec 32 := 0#32
  let v74 : BitVec 1 := Scalar.cmpi .ne v73 c0_i32_25
  v74

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S11x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4194304x11_S11x4194304_1_0 : S4194304x11.Transposes [1, 0] S11x4194304
  shapeCasts_S4194304_S1x4194304 : S4194304.ShapeCasts S1x4194304
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S11x65536_S11x65536_0_0 : ∀ a, (![0, 0] : Fin 2 → Nat) a + S11x65536.size a ≤ S11x65536.size a
  h_S11x65536 : 0 < S11x65536.numel
  shapeCasts_S11x65536_S11x65536 : S11x65536.ShapeCasts S11x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  reduces_S11x65536_S65536 : S11x65536.Reduces [0] S65536
  shapeCasts_S65536_S1x65536 : S65536.ShapeCasts S1x65536
  broadcasts_S1x65536_S11x65536 : S1x65536.Broadcasts S11x65536
  iota_S11x65536_d0_w32 : S11x65536.Iotas .tc 32 [0]
  natLt_1_32 : 1 < 32
  reduces_S1x65536_S1 : S1x65536.Reduces [1] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S11x65536.size a ≤ S11x4194304.size a
  hwx0_0 : ∀ i : grid0.Coords, EltTy.bits .f32 = 32 ∨ (Rect.block (s := S11x4194304) S11x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x4194304.size a
  hwx0_1 : ∀ i : grid0.Coords, EltTy.bits .i32 = 32 ∨ (Rect.block (s := S1x4194304) S1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S11x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x11 : Shape := ⟨2, ![4194304, 11]⟩
abbrev S4194304 : Shape := ⟨1, ![4194304]⟩
abbrev S_ : Shape := ⟨0, ![]⟩
abbrev S4194304x1 : Shape := ⟨2, ![4194304, 1]⟩
abbrev S4194304x3 : Shape := ⟨2, ![4194304, 3]⟩
abbrev S4194304x3x1 : Shape := ⟨3, ![4194304, 3, 1]⟩
abbrev S1 : Shape := ⟨1, ![1]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4194304x11, .f32⟩
  | .hbm, ⟨1, _⟩ => ⟨S4194304, .i32⟩
  | .hbm, ⟨2, _⟩ => ⟨S_, .f32⟩
  | .hbm, ⟨3, _⟩ => ⟨S4194304, .f32⟩
  | .hbm, ⟨4, _⟩ => ⟨S_, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304x11, .f32⟩
  | .hbm, ⟨9, _⟩ => ⟨S4194304x11, .f32⟩
  | .hbm, ⟨10, _⟩ => ⟨S4194304x11, .f32⟩
  | .hbm, ⟨11, _⟩ => ⟨S_, .f32⟩
  | .hbm, ⟨12, _⟩ => ⟨S4194304, .f32⟩
  | .hbm, ⟨13, _⟩ => ⟨S4194304x1, .f32⟩
  | .hbm, ⟨14, _⟩ => ⟨S4194304x1, .f32⟩
  | .hbm, ⟨15, _⟩ => ⟨S4194304x11, .f32⟩
  | .hbm, ⟨16, _⟩ => ⟨S4194304x11, .f32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S4194304, .f32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S4194304, .f32⟩
  | .hbm, ⟨25, _⟩ => ⟨S_, .i32⟩
  | .hbm, ⟨26, _⟩ => ⟨S4194304, .i32⟩
  | .hbm, ⟨27, _⟩ => ⟨S4194304, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S4194304, .i32⟩
  | .hbm, ⟨32, _⟩ => ⟨S4194304, .i32⟩
  | .hbm, ⟨33, _⟩ => ⟨S_, .i32⟩
  | .hbm, ⟨34, _⟩ => ⟨S4194304, .i32⟩
  | .hbm, ⟨35, _⟩ => ⟨S4194304, .i32⟩
  | .hbm, ⟨36, _⟩ => ⟨S_, .i32⟩
  | .hbm, ⟨37, _⟩ => ⟨S4194304, .i32⟩
  | .hbm, ⟨38, _⟩ => ⟨S4194304, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4194304, .i32⟩
  | .hbm, ⟨43, _⟩ => ⟨S4194304, .i32⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304x1, .i32⟩
  | .hbm, ⟨48, _⟩ => ⟨S4194304x1, .i32⟩
  | .hbm, ⟨49, _⟩ => ⟨S4194304x1, .i32⟩
  | .hbm, ⟨50, _⟩ => ⟨S4194304x3, .i32⟩
  | .hbm, ⟨51, _⟩ => ⟨S_, .i32⟩
  | .hbm, ⟨52, _⟩ => ⟨S4194304x3, .i32⟩
  | .hbm, ⟨53, _⟩ => ⟨S4194304x3, .i1⟩
  | .hbm, ⟨54, _⟩ => ⟨S_, .i32⟩
  | .hbm, ⟨55, _⟩ => ⟨S4194304x3, .i32⟩
  | .hbm, ⟨56, _⟩ => ⟨S4194304x3, .i32⟩
  | .hbm, ⟨57, _⟩ => ⟨S4194304x3, .i32⟩
  | .hbm, ⟨58, _⟩ => ⟨S4194304x3x1, .i32⟩
  | .hbm, ⟨59, _⟩ => ⟨S1, .i32⟩
  | .hbm, ⟨60, _⟩ => ⟨S_, .i32⟩
  | .hbm, ⟨61, _⟩ => ⟨S4194304x3x1, .i32⟩
  | .hbm, ⟨62, _⟩ => ⟨S4194304x3x1, .i1⟩
  | .hbm, ⟨63, _⟩ => ⟨S1x1x1, .i32⟩
  | .hbm, ⟨64, _⟩ => ⟨S4194304x3x1, .i32⟩
  | .hbm, ⟨65, _⟩ => ⟨S4194304x3x1, .i1⟩
  | .hbm, ⟨66, _⟩ => ⟨S4194304x3x1, .i1⟩
  | .hbm, ⟨67, _⟩ => ⟨S_, .i1⟩
  | .hbm, ⟨68, _⟩ => ⟨S4194304x3, .i1⟩
  | .hbm, ⟨69, _⟩ => ⟨S4194304x3, .f32⟩
  | .hbm, ⟨70, _⟩ => ⟨S_, .f32⟩
  | .hbm, ⟨71, _⟩ => ⟨S4194304x3, .f32⟩
  | .hbm, ⟨72, _⟩ => ⟨S4194304x3, .f32⟩
  | .hbm, ⟨73, _⟩ => ⟨S_, .f32⟩
  | .hbm, ⟨74, _⟩ => ⟨S4194304, .f32⟩
  | .hbm, ⟨75, _⟩ => ⟨S4194304, .f32⟩
  | .hbm, ⟨76, _⟩ => ⟨S_, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304x1, .f32⟩
  | .hbm, ⟨82, _⟩ => ⟨S4194304x1, .f32⟩
  | .hbm, ⟨83, _⟩ => ⟨S4194304x1, .f32⟩
  | .hbm, ⟨84, _⟩ => ⟨S4194304x3, .f32⟩
  | .hbm, ⟨85, _⟩ => ⟨S_, .f32⟩
  | .hbm, ⟨86, _⟩ => ⟨S4194304, .f32⟩
  | .hbm, ⟨87, _⟩ => ⟨S4194304x1, .f32⟩
  | .hbm, ⟨88, _⟩ => ⟨S4194304x3, .f32⟩
  | .hbm, ⟨89, _⟩ => ⟨S4194304x3, .f32⟩
  | .hbm, ⟨90, _⟩ => ⟨S4194304x3, .f32⟩
  | .hbm, ⟨91, _⟩ => ⟨S_, .f32⟩
  | .hbm, ⟨92, _⟩ => ⟨S4194304, .f32⟩
  | .hbm, ⟨93, _⟩ => ⟨S4194304, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S4194304x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v9 : Ref sig .tc := ⟨.hbm, 35, rfl⟩
abbrev main_c_4 : Ref sig .tc := ⟨.hbm, 36, rfl⟩
abbrev main_v10 : Ref sig .tc := ⟨.hbm, 37, rfl⟩
abbrev main_v11 : Ref sig .tc := ⟨.hbm, 38, rfl⟩
abbrev main_c_5 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v17 : Ref sig .tc := ⟨.hbm, 72, rfl⟩
abbrev main_cst : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_cst_8 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_9 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_10 : Ref sig .tc := ⟨.hbm, 91, rfl⟩
abbrev main_v32 : Ref sig .tc := ⟨.hbm, 92, rfl⟩
abbrev main_v33 : Ref sig .tc := ⟨.hbm, 93, rfl⟩
abbrev main_cst_11 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩

abbrev nD : Nat := 1
abbrev τ : Topo := Topo.v7x

variable {F : FTy → Type} [FloatOps F]

class Facts₀ : Prop where
  reducesTo_S4194304x11_S4194304_d1 : S4194304x11.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x11_0_1 : S4194304x1.BroadcastsInDim S4194304x11 (![0, 1] : Fin 2 → Fin S4194304x11.rank)
  concatenates_S4194304x1_S4194304x1_S4194304x1_S4194304x3_d1 : Shape.Concatenates [S4194304x1, S4194304x1, S4194304x1] S4194304x3 1
  bcast_S_S4194304x3 : S_.BroadcastsInDim S4194304x3 (![] : Fin 0 → Fin S4194304x3.rank)
  shapeCasts_S4194304x3_S4194304x3x1 : S4194304x3.ShapeCasts S4194304x3x1
  bcast_S_S4194304x3x1 : S_.BroadcastsInDim S4194304x3x1 (![] : Fin 0 → Fin S4194304x3x1.rank)
  bcast_S1_S1x1x1_2 : S1.BroadcastsInDim S1x1x1 (![2] : Fin 1 → Fin S1x1x1.rank)
  bcast_S1x1x1_S4194304x3x1_0_1_2 : S1x1x1.BroadcastsInDim S4194304x3x1 (![0, 1, 2] : Fin 3 → Fin S4194304x3x1.rank)
  reducesTo_S4194304x3x1_S4194304x3_d2 : S4194304x3x1.ReducesTo [2] S4194304x3
  reducesTo_S4194304x3_S4194304_d1 : S4194304x3.ReducesTo [1] S4194304
  bcast_S4194304x1_S4194304x3_0_1 : S4194304x1.BroadcastsInDim S4194304x3 (![0, 1] : Fin 2 → Fin S4194304x3.rank)
  reducesTo_S4194304_S_d0 : S4194304.ReducesTo [0] S_
  gather_S4194304x11_S4194304x3x1_S4194304x3_n_1_0_0_1_2_11_wf : GatherDims.WF S4194304x11 S4194304x3x1 S4194304x3 [] [1] [0] [1] [0] 2 ![1, 1]

variable [Facts₀]

def gather_S4194304x11_S4194304x3x1_S4194304x3_n_1_0_0_1_2_11 : GatherDims S4194304x11 S4194304x3x1 S4194304x3 where
  offsetDims := []
  collapsedSliceDims := [1]
  operandBatchingDims := [0]
  startIndicesBatchingDims := [0]
  startIndexMap := [1]
  indexVectorDim := 2
  sliceSizes := ![1, 1]
  wf := gather_S4194304x11_S4194304x3x1_S4194304x3_n_1_0_0_1_2_11_wf

class Facts : Prop extends Facts₀ where

variable [Facts]
-- ==== Proof.KPieces.lean ====
/-
  What each control case of the kernel body leaves behind, as a term of the point's input blocks and of what the accumulator held.

  The body runs in one of three cases. At the first point of a core's run of 32 it resets the accumulator to zero and then
  adds the block's contribution; at a middle point it adds the contribution onto what the point before left; at the last
  point it does the same and stores the accumulator's value into every position of the output block. Each lemma reads the
  stores the case made back as one value: the update `k0_pay1` of the two input blocks over the accumulator's contents before
  (the reset value `k0_pay3` in the first case), and for the output its broadcast `k0_pay2`.
-/
import proofs.«423973_j14800457302459_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's update as a function of the two input blocks and its contents before. -/
abbrev upd (x0 : Vec F S11x65536 .f32) (x1 : Vec F S1x65536 .i32) (acc : Vec F S1x1 .f32) : FVec F S1x1 .f32 :=
  k0_pay1 (k0_pay4 x1) (k0_pay5 x0) (k0_pay6 x1) (k0_pay7 x1) acc

/-- A middle point leaves the accumulator at its update over what it held. -/
theorem soutB_eq (c : Dev nD) (i : grid0.Coords) (arg2 : Memref sig .tc .vmem S11x65536 .f32) (harg2 : arg2.IsWhole) (arg3 : Memref sig .tc .vmem S1x65536 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 : Vec F S11x65536 .f32) (x1 : Vec F S1x65536 .i32) (xs0 : Vec F S1x1 .f32) :
    sout0_B_0 c i arg2 harg2 arg3 harg3 arg4 harg4 arg5 harg5 hc0 hc1 x0 x1 xs0 = upd x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero hz2]
  simp only [View.readAt_eq_ld, harg2.read_unread, harg3.read_unread, harg5.read_unread,
    View.ld_unit_zero (S := S11x65536) hz2, View.ld_unit_zero (S := S1x65536) hz2, View.ld_unit_zero (S := S1x1) hz2]

/-- The last point of a run leaves the accumulator likewise, -/
theorem soutC_eq (c : Dev nD) (i : grid0.Coords) (arg2 : Memref sig .tc .vmem S11x65536 .f32) (harg2 : arg2.IsWhole) (arg3 : Memref sig .tc .vmem S1x65536 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S11x65536 .f32) (x1 : Vec F S1x65536 .i32) (xs0 : Vec F S1x1 .f32) :
    sout0_C_0 c i arg2 harg2 arg3 harg3 arg4 harg4 arg5 harg5 hc0 hc1 x0 x1 xs0 = upd x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_words
  rw [View.canon_unit_zero hz2]
  simp only [View.readAt_eq_ld, harg2.read_unread, harg3.read_unread, harg5.read_unread,
    View.ld_unit_zero (S := S11x65536) hz2, View.ld_unit_zero (S := S1x65536) hz2, View.ld_unit_zero (S := S1x1) hz2]

/-- and the output block at the broadcast of that value. -/
theorem outC_eq (c : Dev nD) (i : grid0.Coords) (arg2 : Memref sig .tc .vmem S11x65536 .f32) (harg2 : arg2.IsWhole) (arg3 : Memref sig .tc .vmem S1x65536 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S11x65536 .f32) (x1 : Vec F S1x65536 .i32) (xs0 : Vec F S1x1 .f32) :
    out0_C_2 c i arg2 harg2 arg3 harg3 arg4 harg4 arg5 harg5 hc0 hc1 x0 x1 xs0 = k0_pay2 (upd x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero hz3]
  simp only [View.readAt_eq_ld, harg2.read_unread, harg3.read_unread, harg5.read_unread,
    View.ld_unit_zero (S := S11x65536) hz2, View.ld_unit_zero (S := S1x65536) hz2, View.ld_unit_zero (S := S1x1) hz2,
    View.readCov_unit_zero (S := S1x1) _ hz2]

/-- The first point of a run resets the accumulator and leaves it at its update over the reset value. -/
theorem soutA_eq (c : Dev nD) (i : grid0.Coords) (arg2 : Memref sig .tc .vmem S11x65536 .f32) (harg2 : arg2.IsWhole) (arg3 : Memref sig .tc .vmem S1x65536 .i32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 : Vec F S11x65536 .f32) (x1 : Vec F S1x65536 .i32) :
    sout0_A_0 c i arg2 harg2 arg3 harg3 arg4 harg4 arg5 harg5 hc0 hc1 x0 x1 = upd x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1x1) hz2]
  simp only [View.readAt_eq_ld, harg2.read_unread, harg3.read_unread, harg5.read_unread,
    View.ld_unit_zero (S := S11x65536) hz2, View.ld_unit_zero (S := S1x65536) hz2, View.ld_unit_zero (S := S1x1) hz2,
    View.readCov_unit_zero (S := S1x1) _ hz2]

end Cert.KernelIdeal.Hand

end
-- ==== Proof.Spec.lean ====
/-
  The mathematics of the certificate, free of both programs.

  One row of the loss: for logits `x : Fin 11 → EReal` and a label word `t`, the log-softmax `lsm x` (shifted by the
  row's maximum), then a weighted sum of three neighbouring log-probabilities, the weights normalised by their sum.
  The kernel forms the weights over all eleven classes by comparing `c - t` with `-1, 0, 1`, divides the weighted sum by the
  weights' sum and masks rows with a negative label (`rowK`); the reference gathers the three clipped neighbours and
  normalises each weight first (`rowR`). On labels `0 ≤ t < 11` and finite log-probabilities the two agree
  (`rowK_eq_rowR`), and the row loss is a real number (`rowR_real`).

  The whole batch: the kernel adds, per core, 32 block sums each already divided by the batch size, and then the two
  cores' totals (`kTotal`); the reference divides the sum over all rows once (`rTotal`). For real row losses the two are
  one number (`kTotal_eq_rTotal`): division by a non-zero real distributes over finite sums of reals.
-/
import Idealize.ShloMosaic.PureOps.Ideal
import Idealize.ShloMosaic.PureOps.Ideal.Laws
import Idealize.ShloMosaic.Lib.ValueIdx

noncomputable section

namespace Cert.Spec

open Idealize.ShloMosaic

/-! ## The float words both programs carry -/

/-- the neighbour weight, the f32 nearest 0.15 -/
abbrev wA : EReal := Ideal.ofBits .f32 0x3E19999A#32
/-- the centre weight, the f32 nearest 0.7 -/
abbrev wB : EReal := Ideal.ofBits .f32 0x3F333333#32
/-- the batch size 4194304 = 2^22 -/
abbrev nB : EReal := Ideal.ofBits .f32 0x4A800000#32
/-- zero -/
abbrev zr : EReal := Ideal.ofBits .f32 0x00000000#32
/-- minus infinity, the start of a maximum -/
abbrev ninf : EReal := Ideal.ofBits .f32 0xFF800000#32
/-- the fill word of an out-of-range gather (never selected on labels in range) -/
abbrev nanw : EReal := Ideal.ofBits .f32 0x7FC00000#32

/-- an integer word read signed, as a float -/
def sI (b : BitVec 32) : EReal := FloatOps.sitofp (F := Ideal) .f32 b
/-- a truth value read unsigned, as a float -/
def uI (b : BitVec 1) : EReal := FloatOps.uitofp (F := Ideal) .f32 b

/-! ## One row -/

/-- the row's maximum, folded from minus infinity -/
def rowMax (x : Fin 11 → EReal) : EReal := (Finset.univ : Finset (Fin 11)).fold max ninf x

/-- log-softmax of a row, shifted by its maximum -/
def lsm (x : Fin 11 → EReal) (c : Fin 11) : EReal :=
  (x c - rowMax x) - Ideal.log (∑ k : Fin 11, Ideal.exp (x k - rowMax x))

/-- class index minus label, as the kernel computes it -/
def dK (c : Fin 11) (t : BitVec 32) : BitVec 32 := IntOp.subi (BitVec.ofNat 32 c.val) t

/-- the kernel's weight of class `c` for label `t` -/
def wK (c : Fin 11) (t : BitVec 32) : EReal :=
  (Scalar.select (IntOp.cmpi .eq (dK c t) 4294967295#32) wA zr + Scalar.select (IntOp.cmpi .eq (dK c t) 0#32) wB zr)
    + Scalar.select (IntOp.cmpi .eq (dK c t) 1#32) wA zr

/-- the kernel's sum of the weights -/
def sumK (t : BitVec 32) : EReal :=
  (wA * sI ((IntOp.cmpi .sgt t 0#32).setWidth 32) + wB) + wA * sI ((IntOp.cmpi .slt t 10#32).setWidth 32)

/-- the kernel's mask of rows with a negative label -/
def validK (t : BitVec 32) : EReal := sI ((IntOp.cmpi .sge t 0#32).setWidth 32)

/-- the kernel's loss of one row, from the row's log-probabilities -/
def rowK (lp : Fin 11 → EReal) (t : BitVec 32) : EReal :=
  Ideal.div (zr - ∑ c : Fin 11, wK c t * lp c) (sumK t) * validK t

/-- clip into 0..10 -/
def clipR (i : BitVec 32) : BitVec 32 := IntOp.minsi 10#32 (IntOp.maxsi 0#32 i)

/-- the reference's three neighbour indices -/
def idxR (t : BitVec 32) : Fin 3 → BitVec 32 := ![clipR (IntOp.subi t 1#32), t, clipR (IntOp.addi t 1#32)]

/-- a negative index counted from the end -/
def normR (i : BitVec 32) : BitVec 32 := Scalar.select (IntOp.cmpi .slt i 0#32) (IntOp.addi i 11#32) i

/-- whether an index lies in 0..10 -/
def inbR (i : BitVec 32) : BitVec 1 := IntOp.andi (IntOp.cmpi .sge i 0#32) (IntOp.cmpi .sle i 10#32)

/-- the reference's three weights before normalisation -/
def wR (t : BitVec 32) : Fin 3 → EReal := ![wA * uI (IntOp.cmpi .sgt t 0#32), wB, wA * uI (IntOp.cmpi .slt t 10#32)]

/-- the class an index word selects: read signed, clamped into 0..10 -/
def cls (i : BitVec 32) : Fin 11 := ⟨min i.toInt.toNat 10, by omega⟩

/-- the reference's gathered log-probability of neighbour `k` -/
def gR (lp : Fin 11 → EReal) (t : BitVec 32) (k : Fin 3) : EReal :=
  Scalar.select (inbR (normR (idxR t k))) (lp (cls (normR (idxR t k)))) nanw

/-- the reference's loss of one row, from the row's log-probabilities -/
def rowR (lp : Fin 11 → EReal) (t : BitVec 32) : EReal :=
  -(zr + ∑ k : Fin 3, Ideal.div (wR t k) (zr + ∑ k' : Fin 3, wR t k') * gR lp t k)

/-! ## The batch -/

/-- row `q` of block `n` (65536 rows a block, 64 blocks) -/
def rowIx (n : ℕ) (q : Fin 65536) : Fin 4194304 := ⟨(n % 64) * 65536 + q.val, by omega⟩

/-- a block's contribution: its rows' sum over the batch size -/
def blockTerm (f : Fin 4194304 → EReal) (n : ℕ) : EReal := Ideal.div (∑ q : Fin 65536, f (rowIx n q)) nB

/-- the kernel's result: per core 32 blocks' contributions added onto zero, then the two cores added -/
def kTotal (f : Fin 4194304 → EReal) : EReal :=
  (zr + ∑ s ∈ Finset.range 32, blockTerm f s) + (zr + ∑ s ∈ Finset.range 32, blockTerm f (32 + s))

/-- the reference's result: the mean over all rows -/
def rTotal (f : Fin 4194304 → EReal) : EReal := Ideal.div (zr + ∑ b : Fin 4194304, f b) nB

/-- Each definition above is equal to its defining expression. -/
theorem definitions_unfold : True := by
  have := @sI.eq_1
  have := @uI.eq_1
  have := @rowMax.eq_1
  have := @lsm.eq_1
  have := @dK.eq_1
  have := @wK.eq_1
  have := @sumK.eq_1
  have := @validK.eq_1
  have := @rowK.eq_1
  have := @clipR.eq_1
  have := @idxR.eq_1
  have := @normR.eq_1
  have := @inbR.eq_1
  have := @wR.eq_1
  have := @cls.eq_1
  have := @gR.eq_1
  have := @rowR.eq_1
  have := @rowIx.eq_1
  have := @blockTerm.eq_1
  have := @kTotal.eq_1
  have := @rTotal.eq_1
  trivial

end Cert.Spec

end
-- ==== Proof.KStep.lean ====
/-
  The kernel body's arithmetic, read at an index at the ideal instance.

  At one grid point the body holds a block of 65536 rows: the logits `x0` with the class on the first axis and the row on the
  second, and the labels `x1`. It forms each row's log-softmax over the eleven classes (a maximum, exponentials, their
  sum, a logarithm), the eleven weights from the class index minus the label, the weighted sum divided by the weights' sum and
  masked, sums the 65536 row losses, divides by the batch size and adds the quotient onto the accumulator. Read at the
  accumulator's one index this is `acc + (Σ_q rowK (lsm (x0 · q)) (x1 q)) / nB` with the row formulas of `Cert.Spec`.
-/
import proofs.«423973_j14800457302459_2_alg».proof.Proof.Gen.KernelIdeal.Skeleton
import proofs.«423973_j14800457302459_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## Reductions and layout operations of the block's shapes, read at an index -/

/-- The source index over lane `q` with class `k` inserted on the reduced axis is `(k, q)`. -/
theorem lift0 (q : Fin 65536) (k : Fin 11) :
    reduces_S11x65536_S65536.lift (ix1 q) k = ix2 k q := by
  funext a; apply Fin.ext
  match a with
  | ⟨0, _⟩ => rfl
  | ⟨1, _⟩ => rfl

/-- A maximum down the classes, at lane `q`, is the row's maximum folded from minus infinity. -/
theorem maxRed_apply (src : FVec Ideal S11x65536 .f32) (q : Fin 65536) :
    multiReduction (F := Ideal) .maximumf [0] S65536 src 0xFF800000#32 reduces_S11x65536_S65536 (.inl rfl) rfl (ix1 q)
      = Spec.rowMax (fun k : Fin 11 => src (ix2 k q)) := by
  refine (Ideal.multiReduction_maximumf_single src 0xFF800000#32 reduces_S11x65536_S65536 (.inl rfl) rfl (ix1 q)).trans ?_
  show (Finset.univ : Finset (Fin 11)).fold max Spec.ninf (fun k : Fin 11 => src (reduces_S11x65536_S65536.lift (ix1 q) k)) = _
  exact congrArg (fun f : Fin 11 → EReal => (Finset.univ : Finset (Fin 11)).fold max Spec.ninf f) (funext fun k => congrArg src (lift0 q k))

/-- A sum down the classes, at lane `q`, is the sum over the eleven classes. -/
theorem addRed0_apply (src : FVec Ideal S11x65536 .f32) (q : Fin 65536) :
    multiReduction (F := Ideal) .add [0] S65536 src 0x00000000#32 reduces_S11x65536_S65536 (.inl rfl) rfl (ix1 q)
      = ∑ k : Fin 11, src (ix2 k q) := by
  refine (Ideal.multiReduction_add_single src 0x00000000#32 reduces_S11x65536_S65536 (.inl rfl) rfl (ix1 q)).trans ?_
  show ∑ k : Fin 11, src (reduces_S11x65536_S65536.lift (ix1 q) k) = _
  exact Finset.sum_congr rfl fun k _ => congrArg src (lift0 q k)

/-- A lane vector re-laid as one row and repeated down the classes reads its lane. -/
theorem spread_apply {α : Type} (v : S65536.Idx → α) (k : Fin 11) (q : Fin 65536) :
    broadcastTo S11x65536 (shapeCast S1x65536 v shapeCasts_S65536_S1x65536) broadcasts_S1x65536_S11x65536 (ix2 k q) = v (ix1 q) :=
  (broadcastTo_1b_ab_apply _ _ k q).trans (shapeCast_a_1a_apply v _ 0 q)

/-- The logarithm of a lane vector re-laid as one row, repeated down the classes, reads the logarithm of its lane. -/
theorem spreadLog_apply (v : FVec Ideal S65536 .f32) (k : Fin 11) (q : Fin 65536) :
    broadcastTo S11x65536 (log (shapeCast S1x65536 v shapeCasts_S65536_S1x65536)) broadcasts_S1x65536_S11x65536 (ix2 k q)
      = Ideal.log (v (ix1 q)) :=
  (broadcastTo_1b_ab_apply _ _ k q).trans (congrArg Ideal.log (shapeCast_a_1a_apply v _ 0 q))

/-- The log-probabilities at class `k` of row `q`: the log-softmax of the row's eleven logits. -/
theorem pay5_apply (x0 : Vec Ideal S11x65536 .f32) (k : Fin 11) (q : Fin 65536) :
    k0_pay5 (F := Ideal) x0 (ix2 k q) = Spec.lsm (fun k => x0 (ix2 k q)) k := by
  unfold k0_pay5
  dsimp only
  rw [shapeCast_self]
  have hmax : ∀ k' : Fin 11,
      broadcastTo S11x65536 (shapeCast S1x65536 (multiReduction (F := Ideal) .maximumf [0] S65536 x0 0xFF800000#32
          reduces_S11x65536_S65536 (.inl rfl) rfl) shapeCasts_S65536_S1x65536) broadcasts_S1x65536_S11x65536 (ix2 k' q)
        = Spec.rowMax (fun k => x0 (ix2 k q)) :=
    fun k' => (spread_apply _ k' q).trans (maxRed_apply x0 q)
  refine (subf_apply _ _ _).trans ?_
  unfold Spec.lsm
  refine congrArg₂ (· - ·) ((subf_apply _ _ _).trans (congrArg (x0 (ix2 k q) - ·) (hmax k))) ?_
  refine (spreadLog_apply _ k q).trans (congrArg Ideal.log ?_)
  refine (addRed0_apply _ q).trans (Finset.sum_congr rfl fun k' _ => ?_)
  show Ideal.exp (x0 (ix2 k' q) - _) = _
  exact congrArg (fun m => Ideal.exp (x0 (ix2 k' q) - m)) (hmax k')

/-- The labels pass through their shape cast unchanged. -/
theorem pay4_eq (x1 : Vec Ideal S1x65536 .i32) : k0_pay4 (F := Ideal) x1 = x1 := by
  unfold k0_pay4
  exact shapeCast_self _ _

/-- The mask of positive labels is the comparison of the labels with zero. -/
theorem pay7_eq (x1 : Vec Ideal S1x65536 .i32) :
    k0_pay7 (F := Ideal) x1 = cmpi .sgt x1 (broadcast S1x65536 0#32) := by
  unfold k0_pay7
  dsimp only
  rw [pay4_eq]

/-- The class index minus the label, at class `k` of row `q`. -/
theorem diff_apply (x1 : Vec Ideal S1x65536 .i32) (k : Fin 11) (q : Fin 65536) :
    subi (iota .tc S11x65536 32 [0] iota_S11x65536_d0_w32)
        (broadcastTo S11x65536 (k0_pay4 (F := Ideal) x1) broadcasts_S1x65536_S11x65536) (ix2 k q)
      = Spec.dK k (x1 (ix2 (0 : Fin 1) q)) := by
  show IntOp.subi (iota .tc S11x65536 32 [0] iota_S11x65536_d0_w32 (ix2 k q))
      (broadcastTo S11x65536 (k0_pay4 (F := Ideal) x1) broadcasts_S1x65536_S11x65536 (ix2 k q)) = _
  rw [iota_single_apply, broadcastTo_1b_ab_apply, pay4_eq]
  rfl

/-- The weights at class `k` of row `q`: the kernel's weight of the class for the row's label. -/
theorem pay6_apply (x1 : Vec Ideal S1x65536 .i32) (k : Fin 11) (q : Fin 65536) :
    k0_pay6 (F := Ideal) x1 (ix2 k q) = Spec.wK k (x1 (ix2 (0 : Fin 1) q)) := by
  unfold k0_pay6 Spec.wK
  dsimp only
  rw [← diff_apply x1 k q]
  rfl

/-- The source index over the one reduced position with row `q` inserted on the reduced axis is `(0, q)`. -/
theorem lift1 (r : Fin 1) (q : Fin 65536) :
    reduces_S1x65536_S1.lift (ix1 r) q = ix2 r q := by
  funext a; apply Fin.ext
  match a with
  | ⟨0, _⟩ => rfl
  | ⟨1, _⟩ => rfl

/-- A sum along the rows is the sum over the 65536 rows. -/
theorem addRed1_apply (src : FVec Ideal S1x65536 .f32) (r : Fin 1) :
    multiReduction (F := Ideal) .add [1] S1 src 0x00000000#32 reduces_S1x65536_S1 (.inl rfl) rfl (ix1 r)
      = ∑ q : Fin 65536, src (ix2 r q) := by
  refine (Ideal.multiReduction_add_single src 0x00000000#32 reduces_S1x65536_S1 (.inl rfl) rfl (ix1 r)).trans ?_
  show ∑ q : Fin 65536, src (reduces_S1x65536_S1.lift (ix1 r) q) = _
  exact Finset.sum_congr rfl fun q _ => congrArg src (lift1 r q)

/-! ## The three stored values -/

/-- One grid point's update of the accumulator: the body's stored value as a function of the point's two input blocks and of
    what the accumulator held. -/
abbrev step (x0 : Vec Ideal S11x65536 .f32) (x1 : Vec Ideal S1x65536 .i32) (acc : Vec Ideal S1x1 .f32) : FVec Ideal S1x1 .f32 :=
  k0_pay1 (F := Ideal) (k0_pay4 x1) (k0_pay5 x0) (k0_pay6 x1) (k0_pay7 x1) acc

/-- The update at the accumulator's index: what it held, plus the block's 65536 row losses summed and divided by the
    batch size. -/
theorem step_apply (x0 : Vec Ideal S11x65536 .f32) (x1 : Vec Ideal S1x65536 .i32) (acc : Vec Ideal S1x1 .f32) (i : S1x1.Idx) :
    step x0 x1 acc i
      = acc i + Ideal.div (∑ q : Fin 65536, Spec.rowK (Spec.lsm fun k : Fin 11 => x0 (ix2 k q)) (x1 (ix2 (0 : Fin 1) q))) Spec.nB := by
  obtain ⟨a, b, rfl⟩ : ∃ (a b : Fin 1), i = ix2 a b := ⟨i 0, i 1, eq_ix2 i⟩
  obtain rfl : b = 0 := Subsingleton.elim _ _
  unfold step k0_pay1
  dsimp only
  rw [shapeCast_self, pay4_eq, pay7_eq]
  -- the accumulator plus the quotient by the batch size
  refine (addf_apply _ _ _).trans (congrArg (acc (ix2 a 0) + ·) ?_)
  refine (divf_apply _ _ _).trans (congrArg₂ Ideal.div ?_ rfl)
  -- the sum along the rows, re-laid
  refine (shapeCast_a_1a_apply _ _ a 0).trans ?_
  refine (addRed1_apply _ 0).trans (Finset.sum_congr rfl fun q _ => ?_)
  -- one row: the quotient times the mask
  refine (mulf_apply _ _ _).trans ?_
  unfold Spec.rowK
  refine congrArg₂ (· * ·) ?_ rfl
  refine (divf_apply _ _ _).trans (congrArg₂ Ideal.div ?_ rfl)
  -- the numerator: zero minus the weighted sum of the log-probabilities down the classes
  refine (subf_apply _ _ _).trans (congrArg (Spec.zr - ·) ?_)
  refine (shapeCast_a_1a_apply _ _ 0 q).trans ?_
  refine (addRed0_apply _ q).trans (Finset.sum_congr rfl fun c _ => ?_)
  exact (mulf_apply _ _ _).trans (congrArg₂ (· * ·) (pay6_apply x1 c q) (pay5_apply x0 c q))

/-- The reset value of the accumulator is zero. -/
theorem pay3_apply (i : S1x1.Idx) : k0_pay3 (F := Ideal) i = Spec.zr := by
  unfold k0_pay3
  rw [shapeCast_self]
  rfl

/-- The output block is the accumulator's one value at every position. -/
theorem pay2_apply (v : Vec Ideal S1x1 .f32) (j : S1x8x128.Idx) : k0_pay2 (F := Ideal) v j = v (ix2 (0 : Fin 1) (0 : Fin 1)) := by
  unfold k0_pay2
  obtain ⟨a, b, c, rfl⟩ : ∃ (a : Fin 1) (b : Fin 8) (c : Fin 128), j = ix3 a b c := ⟨j 0, j 1, j 2, eq_ix3 j⟩
  refine (broadcastTo_apply _ broadcasts_S1x1x1_S1x8x128 (ix3 a b c) (ix3 (0 : Fin 1) (0 : Fin 1) (0 : Fin 1)) fun ax => ?_).trans ?_
  · match ax with
    | ⟨0, _⟩ => rfl
    | ⟨1, _⟩ => rfl
    | ⟨2, _⟩ => rfl
  · exact shapeCast_apply v shapeCasts_S1x1_S1x1x1 _ _ rfl

end Cert.KernelIdeal.Hand

end
-- ==== Proof.KAcc.lean ====
/-
  The accumulator over a core's run of 32 grid points, and the output block at the run's last point.

  Point `t` of the grid holds block `t` of the rows (65536 of them). The accumulator is reset at the points divisible by 32
  and stepped at the others, each time by the point's update, which adds the block's contribution `blockK t` — the block's
  row losses summed and divided by the batch size. So after point `t` it holds zero plus the contributions of the points
  `32·(t / 32) … t`; at the last point of a run that is the core's whole total, and the output block there is that one value
  at every position.
-/
import proofs.«423973_j14800457302459_2_alg».proof.Proof.KPieces
import proofs.«423973_j14800457302459_2_alg».proof.Proof.KStep
import proofs.«423973_j14800457302459_2_alg».proof.Proof.Spec

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

/-- The logits' block at point `t`: classes by rows. -/
abbrev xb0 (c : Dev nD) (t : Fin cfg0.N) : Vec Ideal S11x65536 .f32 := iblk m c 0 t
/-- The labels' block at point `t`. -/
abbrev xb1 (c : Dev nD) (t : Fin cfg0.N) : Vec Ideal S1x65536 .i32 := iblk m c 1 t

theorem N64 : cfg0.N = 64 := N_0

/-- A natural number as a grid point (the grid has 64). -/
def pt (n : ℕ) : Fin cfg0.N := ⟨n % 64, by rw [N64]; exact Nat.mod_lt _ (by decide)⟩

theorem pt_eq (n : ℕ) (h : n < cfg0.N) : pt n = ⟨n, h⟩ :=
  Fin.ext (Nat.mod_eq_of_lt (by rw [← N64]; exact h))

/-- Block `n`'s contribution to the mean: its rows' losses summed, over the batch size. -/
def blockK (c : Dev nD) (n : ℕ) : EReal :=
  Ideal.div (∑ q : Fin 65536, Spec.rowK (Spec.lsm fun k : Fin 11 => xb0 m c (pt n) (ix2 k q)) (xb1 m c (pt n) (ix2 (0 : Fin 1) q))) Spec.nB

/-- At a point divisible by 32 the accumulator is left at its update over the reset value. -/
theorem sc_reset (c : Dev nD) (t : Fin cfg0.N) (h0 : t.val % 32 = 0) :
    (outsAt0 m c t.val t.isLt).2 = upd (xb0 m c t) (xb1 m c t) (k0_pay3 (F := Ideal)) := by
  have h1 : ¬ t.val % 32 = 31 := by omega
  rw [outsAt0_A m c t h0 h1]
  dsimp only
  exact soutA_eq c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (xb0 m c t) (xb1 m c t)

/-- At any other point it is left at its update over what the point before left. -/
theorem sc_step (c : Dev nD) (n : ℕ) (h : n + 1 < cfg0.N) (h0 : ¬ (n + 1) % 32 = 0) :
    (outsAt0 m c (n + 1) h).2 = upd (xb0 m c ⟨n + 1, h⟩) (xb1 m c ⟨n + 1, h⟩) (outsAt0 m c n (Nat.lt_of_succ_lt h)).2 := by
  by_cases h1 : (n + 1) % 32 = 31
  · rw [outsAt0_C m c ⟨n + 1, h⟩ h0 h1]
    dsimp only
    exact soutC_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (fun h' => h0 ((hcond0_0 ⟨n + 1, h⟩).mp h')) ((hcond0_1 ⟨n + 1, h⟩).mpr h1) (xb0 m c ⟨n + 1, h⟩) (xb1 m c ⟨n + 1, h⟩) (outsAt0 m c n (Nat.lt_of_succ_lt h)).2
  · rw [outsAt0_B m c ⟨n + 1, h⟩ h0 h1]
    dsimp only
    exact soutB_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
      (fun h' => h0 ((hcond0_0 ⟨n + 1, h⟩).mp h')) (fun h' => h1 ((hcond0_1 ⟨n + 1, h⟩).mp h')) (xb0 m c ⟨n + 1, h⟩) (xb1 m c ⟨n + 1, h⟩) (outsAt0 m c n (Nat.lt_of_succ_lt h)).2

/-- The update at the accumulator's index: what it held plus the point's contribution. -/
theorem upd_apply (c : Dev nD) (n : ℕ) (h : n < cfg0.N) (acc : Vec Ideal S1x1 .f32) (i : S1x1.Idx) :
    upd (xb0 m c ⟨n, h⟩) (xb1 m c ⟨n, h⟩) acc i = acc i + blockK m c n := by
  unfold blockK
  rw [pt_eq n h]
  exact step_apply (xb0 m c ⟨n, h⟩) (xb1 m c ⟨n, h⟩) acc i

/-- THE FOLD: after point `t` the accumulator holds zero plus the contributions of the points of `t`'s run up to `t`. -/
theorem sc_fold (c : Dev nD) (t : Fin cfg0.N) (i : S1x1.Idx) :
    (outsAt0 m c t.val t.isLt).2 i = Spec.zr + ∑ s ∈ Finset.range (t.val % 32 + 1), blockK m c (32 * (t.val / 32) + s) := by
  have h' : 32 * (t.val / 32) + t.val % 32 < cfg0.N := by rw [Nat.div_add_mod]; exact t.isLt
  have e := Pipeline.eq_accAt_of_mod (N := cfg0.N) (fun n h => (outsAt0 m c n h).2) 32
    (fun n h => upd (xb0 m c ⟨n, h⟩) (xb1 m c ⟨n, h⟩) (k0_pay3 (F := Ideal)))
    (fun n h acc => upd (xb0 m c ⟨n, h⟩) (xb1 m c ⟨n, h⟩) acc)
    (fun n h h0 => sc_reset m c ⟨n, h⟩ h0) (fun n h hne => sc_step m c n h hne) (by decide) t.val t.isLt h'
  refine (congrFun e i).trans ?_
  exact Pipeline.accAt_add_apply
    (fun n h => upd (xb0 m c ⟨n, h⟩) (xb1 m c ⟨n, h⟩) (k0_pay3 (F := Ideal)))
    (fun n h acc => upd (xb0 m c ⟨n, h⟩) (xb1 m c ⟨n, h⟩) acc)
    (fun _ => Spec.zr) (fun n _ => blockK m c n) (32 * (t.val / 32)) 31
    (fun h i => by rw [upd_apply m c _ h, pay3_apply])
    (fun n h acc i _ _ => upd_apply m c n h acc i)
    (t.val % 32) (by omega) h' i

/-- At the last point of a run the output block is the accumulator's value at every position. -/
theorem out_last (c : Dev nD) (t : Fin cfg0.N) (h1 : t.val % 32 = 31) :
    (outsAt0 m c t.val t.isLt).1 = k0_pay2 (F := Ideal) (outsAt0 m c t.val t.isLt).2 := by
  have h0 : ¬ t.val % 32 = 0 := by omega
  rw [outsAt0_C m c t h0 h1]
  dsimp only
  rw [outC_eq c (grid0.coords t) (ms0_0 t) (hs0_0 t) (ms0_1 t) (hs0_1 t) (ms0_2 t) (hs0_2 t) scM0_0 (Memref.isWhole_whole _)
      (fun h' => h0 ((hcond0_0 t).mp h')) ((hcond0_1 t).mpr h1) (xb0 m c t) (xb1 m c t) (outsAt0 m c (t.val - 1) (Nat.lt_of_le_of_lt (Nat.sub_le _ _) t.isLt)).2,
    soutC_eq c (grid0.coords t) (ms0_0 t) (hs0_0 t) (ms0_1 t) (hs0_1 t) (ms0_2 t) (hs0_2 t) scM0_0 (Memref.isWhole_whole _)
      (fun h' => h0 ((hcond0_0 t).mp h')) ((hcond0_1 t).mpr h1) (xb0 m c t) (xb1 m c t) (outsAt0 m c (t.val - 1) (Nat.lt_of_le_of_lt (Nat.sub_le _ _) t.isLt)).2]

end Cert.KernelIdeal.Hand

end
-- ==== Proof.KOut.lean ====
/-
  The output array after the region, and the program's result after the host operations that follow it.

  The output [2, 8, 128] has one block per core. Block `k` is written back once, at the last point of core `k`'s run, with
  the core's total — zero plus its 32 blocks' contributions — at every position. After the region the host takes entry
  (0, 0, 0) and entry (1, 0, 0) of that array and adds them: the two cores' totals added.
-/
import proofs.«423973_j14800457302459_2_alg».proof.Proof.KAcc

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- Core `k`'s total: zero plus the contributions of its 32 blocks. -/
def coreTotal (c : Dev nD) (k : ℕ) : EReal := Spec.zr + ∑ s ∈ Finset.range 32, blockK m c (32 * k + s)

/-- What the output array ends holding: at every position of block `k`, core `k`'s total. -/
abbrev outArr (c : Dev nD) : S2x8x128.Idx → Elt Ideal .f32 := fun j => coreTotal m c (j 0).val

/-- The output's block index at point `t`: the core's number, decided over the grid. -/
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

/-- What a write-back point writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  show (cfg0.win 2).cut (grid0.coords t) ((dats m 0 c).after 2 t) = _
  rw [after0_2, out_last m c t h1]
  funext y
  show k0_pay2 (F := Ideal) (outsAt0 m c t.val t.isLt).2 y = outArr m c (((cfg0.win 2).blk t).view.emb y)
  rw [pay2_apply, sc_fold m c t]
  obtain ⟨e0, -, -⟩ := idx2 t
  have hy : (((cfg0.win 2).blk t).view.emb y (0 : Fin 3)).val = t.val / 32 := by
    show win0_2.index t (0 : Fin 3) * 1 + 1 * (y 0).val = _
    have : (y 0).val < 1 := (y 0).isLt
    omega
  show _ = coreTotal m c (((cfg0.win 2).blk t).view.emb y (0 : Fin 3)).val
  rw [hy, h1]
  rfl

/-- Every position of the output lies in the block of its core's last point. -/
theorem cover (c : Dev nD) (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hlt : 32 * (i 0).val + 31 < cfg0.N := by rw [N64]; omega
  obtain ⟨e0, e1, e2⟩ := idx2 ⟨32 * (i 0).val + 31, hlt⟩
  refine ⟨⟨32 * (i 0).val + 31, hlt⟩, (flush0_2 _).mpr (by show (32 * (i 0).val + 31) % 32 = 31; omega), ?_⟩
  show i ∈ ((View.whole main_v2).slice (win0_2.rect ⟨32 * (i 0).val + 31, hlt⟩)).set
  rw [View.set_slice_whole, Rect.mem_set_unit]
  intro a
  match a with
  | ⟨0, _⟩ =>
    show win0_2.index ⟨32 * (i 0).val + 31, hlt⟩ (0 : Fin 3) * 1 ≤ (i 0).val ∧ (i 0).val < win0_2.index ⟨32 * (i 0).val + 31, hlt⟩ (0 : Fin 3) * 1 + 1
    rw [e0]; show (32 * (i 0).val + 31) / 32 * 1 ≤ (i 0).val ∧ (i 0).val < (32 * (i 0).val + 31) / 32 * 1 + 1; omega
  | ⟨1, _⟩ =>
    show win0_2.index ⟨32 * (i 0).val + 31, hlt⟩ (1 : Fin 3) * 8 ≤ (i 1).val ∧ (i 1).val < win0_2.index ⟨32 * (i 0).val + 31, hlt⟩ (1 : Fin 3) * 8 + 8
    rw [e1]; omega
  | ⟨2, _⟩ =>
    show win0_2.index ⟨32 * (i 0).val + 31, hlt⟩ (2 : Fin 3) * 128 ≤ (i 2).val ∧ (i 2).val < win0_2.index ⟨32 * (i 0).val + 31, hlt⟩ (2 : Fin 3) * 128 + 128
    rw [e2]; omega

/-- So the output array ends holding `outArr`. -/
theorem final_out (c : Dev nD) : (dats m 0 c).arrAt 2 cfg0.N = outArr m c :=
  (dats m 0 c).arrAt_eq_of_cover 2 (outArr m c) (flushed_eq m c) (cover c)

/-- The host's reading of the output array: entry (0, 0, 0) plus entry (1, 0, 0), for any contents `G`. -/
theorem tail_read (G : S2x8x128.Idx → Elt Ideal .f32) (i : S_.Idx) :
    (shapeCast S_ (extractStridedSlice S1x1x1 ![0, 0, 0] G slices_S2x8x128_S1x1x1_0_0_0) shapeCasts_S1x1x1_S_ i : EReal)
      + shapeCast S_ (extractStridedSlice S1x1x1 ![1, 0, 0] G slices_S2x8x128_S1x1x1_1_0_0) shapeCasts_S1x1x1_S_ i
      = G (ix3 (0 : Fin 2) (0 : Fin 8) (0 : Fin 128)) + G (ix3 (1 : Fin 2) (0 : Fin 8) (0 : Fin 128)) := by
  have r0 : shapeCast S_ (extractStridedSlice S1x1x1 ![0, 0, 0] G slices_S2x8x128_S1x1x1_0_0_0) shapeCasts_S1x1x1_S_ i
      = G (ix3 (0 : Fin 2) (0 : Fin 8) (0 : Fin 128)) := by
    refine (shapeCast_apply _ shapeCasts_S1x1x1_S_ i (ix3 (0 : Fin 1) (0 : Fin 1) (0 : Fin 1)) rfl).trans ?_
    refine extractStridedSlice_apply ![0, 0, 0] G slices_S2x8x128_S1x1x1_0_0_0 (ix3 (0 : Fin 1) (0 : Fin 1) (0 : Fin 1)) (ix3 (0 : Fin 2) (0 : Fin 8) (0 : Fin 128)) fun a => ?_
    match a with
    | ⟨0, _⟩ => rfl
    | ⟨1, _⟩ => rfl
    | ⟨2, _⟩ => rfl
  have r1 : shapeCast S_ (extractStridedSlice S1x1x1 ![1, 0, 0] G slices_S2x8x128_S1x1x1_1_0_0) shapeCasts_S1x1x1_S_ i
      = G (ix3 (1 : Fin 2) (0 : Fin 8) (0 : Fin 128)) := by
    refine (shapeCast_apply _ shapeCasts_S1x1x1_S_ i (ix3 (0 : Fin 1) (0 : Fin 1) (0 : Fin 1)) rfl).trans ?_
    refine extractStridedSlice_apply ![1, 0, 0] G slices_S2x8x128_S1x1x1_1_0_0 (ix3 (0 : Fin 1) (0 : Fin 1) (0 : Fin 1)) (ix3 (1 : Fin 2) (0 : Fin 8) (0 : Fin 128)) fun a => ?_
    match a with
    | ⟨0, _⟩ => rfl
    | ⟨1, _⟩ => rfl
    | ⟨2, _⟩ => rfl
  rw [r0, r1]

/-- After the host operations that follow the region the result is the two cores' totals added. -/
theorem tail_eq (c : Dev nD) :
    Pipeline.afterTail₀ cfgs (dats m) 0 (V0 m) [hostOps1] c main_v7 = fun _ => coreTotal m c 0 + coreTotal m c 1 := by
  unfold Pipeline.afterTail₀
  show StableHlo.after hostOps1 _ (Proc.devRef .tc main_v7) = _
  after_results
  have hW : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final_out m c)
  rw [hW]
  funext i
  exact tail_read (outArr m c) i

end Cert.KernelIdeal.Hand

end
-- ==== Proof.KBlocks.lean ====
/-
  The kernel's input blocks as rows of the arguments.

  Before the region the host transposes the logits to [11, 4194304] (classes by rows) and re-lays the labels as
  [1, 4194304]. Grid point `t` stages block `t` of each along the row axis: 65536 rows starting at row `65536·t`. So the
  logits' block at (class `k`, lane `q`) is the logit of row `65536·t + q` and class `k`, and the labels' block at lane `q`
  is that row's label.
-/
import proofs.«423973_j14800457302459_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable {F : FTy → Type} [FloatOps F]
variable (m : (ℓ : Loc nD τ sig) → Buf (Elt F) ℓ)

/-! ## What the region finds in the two staged arrays -/

/-- The first staged array is the logits transposed: classes by rows. -/
theorem V_main_v0 (c : Dev nD) :
    (V m c main_v0 : S11x4194304.Idx → Elt F .f32)
      = transpose S11x4194304 [1, 0] (m ((c : Thread nD τ).loc main_arg0)) transposes_S4194304x11_S11x4194304_1_0 := by
  show StableHlo.after hostOps0 (fun b => m (c, b)) (Proc.devRef .tc main_v0) = _
  after_results

/-- The second staged array is the labels re-laid as one row. -/
theorem V_main_v1 (c : Dev nD) :
    (V m c main_v1 : S1x4194304.Idx → Elt F .i32)
      = shapeCast S1x4194304 (m ((c : Thread nD τ).loc main_arg1)) shapeCasts_S4194304_S1x4194304 := by
  show StableHlo.after hostOps0 (fun b => m (c, b)) (Proc.devRef .tc main_v1) = _
  after_results
  rfl

/-! ## The block index of each window at a grid point: none along the classes, the point's number along the rows -/

/-- The logits' window at point `t` stages block `(0, t)`. -/
theorem idx0 : ∀ t : Fin cfg0.N, win0_0.index t (0 : Fin 2) = 0 ∧ win0_0.index t (1 : Fin 2) = t.val :=
  (by decide +kernel : ∀ t : Fin grid0.N, _)

/-- The labels' window at point `t` stages block `(0, t)`. -/
theorem idx1 : ∀ t : Fin cfg0.N, win0_1.index t (0 : Fin 2) = 0 ∧ win0_1.index t (1 : Fin 2) = t.val :=
  (by decide +kernel : ∀ t : Fin grid0.N, _)

/-! ## The two blocks -/

/-- The logits' block at point `t`, at class `k` and lane `q`, is the first argument at row `65536·t + q`, class `k`. -/
theorem iblk0_apply (c : Dev nD) (t : Fin cfg0.N) (k : Fin 11) (q : Fin 65536) (b : Fin 4194304)
    (hb : b.val = t.val * 65536 + q.val) :
    (iblk m c 0 t : Vec F S11x65536 .f32) (ix2 k q)
      = (m ((c : Thread nD τ).loc main_arg0) : S4194304x11.Idx → Elt F .f32) (ix2 b k) := by
  unfold iblk
  rw [View.read_apply]
  show V m c main_v0 (((cfg0.win 0).blk t).view.emb (ix2 k q)) = _
  rw [V_main_v0]
  -- the transposed array at (class, row) is the argument at (row, class); the block's element (k, q) sits at
  -- class 0·11 + k and row t·65536 + q
  refine transpose_apply _ _ _ _ (ix2 b k) fun a => ?_
  match a with
  | ⟨0, _⟩ =>
    show k.val = win0_0.index t 0 * 11 + 1 * k.val
    rw [(idx0 t).1]; omega
  | ⟨1, _⟩ =>
    show b.val = win0_0.index t 1 * 65536 + 1 * q.val
    rw [(idx0 t).2, hb]; omega

/-- The labels' block at point `t`, at lane `q`, is the second argument at row `65536·t + q`. -/
theorem iblk1_apply (c : Dev nD) (t : Fin cfg0.N) (q : Fin 65536) (b : Fin 4194304)
    (hb : b.val = t.val * 65536 + q.val) :
    (iblk m c 1 t : Vec F S1x65536 .i32) (ix2 (0 : Fin 1) q)
      = (m ((c : Thread nD τ).loc main_arg1) : S4194304.Idx → Elt F .i32) (ix1 b) := by
  unfold iblk
  rw [View.read_apply]
  show V m c main_v1 (((cfg0.win 1).blk t).view.emb (ix2 (0 : Fin 1) q)) = _
  rw [V_main_v1]
  -- the one-row array at (0, row) is the argument at the same row-major position; the block's element (0, q) sits at
  -- row t·65536 + q
  refine shapeCast_apply _ _ _ (ix1 b) ?_
  refine (Shape.rowMajor_val_one _).trans (Eq.trans ?_ (Shape.rowMajor_val_two (d := ![1, 4194304]) _).symm)
  show b.val = (win0_1.index t 0 * 1 + 1 * 0) * 4194304 + (win0_1.index t 1 * 65536 + 1 * q.val)
  rw [(idx1 t).1, (idx1 t).2, hb]; omega

end Cert.KernelIdeal.Hand

end
-- ==== Proof.KFinal.lean ====
/-
  The idealized kernel's run, read: its result is the kernel's blockwise total of its own row losses over the arguments.

  Block `n`'s rows are rows `65536·n … 65536·n + 65535` of the arguments, so a block's contribution is
  `Spec.blockTerm` of the kernel's row loss as a function of the batch row; the two cores' totals added are `Spec.kTotal`
  of it; and the frame run, which leaves the result buffer at the host tail's value, re-posted says so.
-/
import proofs.«423973_j14800457302459_2_alg».proof.Proof.KOut
import proofs.«423973_j14800457302459_2_alg».proof.Proof.KBlocks

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The kernel's loss of batch row `b`, from the two arguments. -/
def rowLossK (c : Dev nD) (b : Fin 4194304) : EReal :=
  Spec.rowK (Spec.lsm fun k : Fin 11 => (m ((c : Thread nD τ).loc main_arg0) : S4194304x11.Idx → Elt Ideal .f32) (ix2 b k))
    ((m ((c : Thread nD τ).loc main_arg1) : S4194304.Idx → Elt Ideal .i32) (ix1 b))

/-- A block's contribution is the block term of the kernel's row loss. -/
theorem blockK_eq (c : Dev nD) (n : ℕ) : blockK m c n = Spec.blockTerm (rowLossK m c) n := by
  unfold blockK Spec.blockTerm
  refine congrArg (fun s => Ideal.div s Spec.nB) (Finset.sum_congr rfl fun q _ => ?_)
  have hb : (Spec.rowIx n q).val = (pt n).val * 65536 + q.val := rfl
  unfold rowLossK
  have e0 : (fun k : Fin 11 => xb0 m c (pt n) (ix2 k q))
      = fun k : Fin 11 => (m ((c : Thread nD τ).loc main_arg0) : S4194304x11.Idx → Elt Ideal .f32) (ix2 (Spec.rowIx n q) k) :=
    funext fun k => iblk0_apply m c (pt n) k q (Spec.rowIx n q) hb
  have e1 : xb1 m c (pt n) (ix2 (0 : Fin 1) q)
      = (m ((c : Thread nD τ).loc main_arg1) : S4194304.Idx → Elt Ideal .i32) (ix1 (Spec.rowIx n q)) :=
    iblk1_apply m c (pt n) q (Spec.rowIx n q) hb
  rw [e0, e1]

/-- The two cores' totals added are the kernel's total of its row losses. -/
theorem total_eq (c : Dev nD) : coreTotal m c 0 + coreTotal m c 1 = Spec.kTotal (rowLossK m c) := by
  unfold coreTotal Spec.kTotal
  simp only [blockK_eq, Nat.mul_zero, Nat.zero_add, Nat.mul_one]

/-- THE RUN, READ: every weakly fair execution of the idealized kernel terminates with the result at the kernel's total of its
    row losses over the arguments, the arguments unchanged. -/
theorem kernel_run : θ_run defs (onTc (τ := τ) (main (F := Ideal))) ⟨m, fun _ => 0, ρ⟩ fun r => ∀ c : Dev nD,
      r.2.mem ((c : Thread nD τ).loc main_v7) = (fun _ => Spec.kTotal (rowLossK m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v7 (Pipeline.mem_restRefs_of main_v7 (by decide) (by decide))).trans
          ((tail_eq m c).trans (funext fun _ => total_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run, stated over its stages.

  The reference is a straight line of 96 host operations. After them the result buffer holds the last stage — the mean of the
  row losses, `ReadP.val_main_v35` of the two argument arrays — and the arguments are as launched. The fold of the
  operations' results is computed stretch by stretch: after each stretch the buffers later operations read are stated as
  stages of the arguments, so that no operand's term is ever written out more than once.
-/
import proofs.«423973_j14800457302459_2_alg».proof.Proof.RefOps
import proofs.«423973_j14800457302459_2_alg».proof.Proof.RefRead

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation, and the typed references' transport -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- Contents moved to a typed reference's buffer and back are the contents: both moves are along the same equation of
    types, one way and the other. -/
theorem ofBuf_toBuf {T : BufTy} (x : TRef sig T) (v : T.Contents (Elt F)) : x.ofBuf (x.toBuf v) = v := by
  obtain ⟨r, rfl, _, _⟩ := x
  rfl

/-! A single move, at a buffer whose type is the value's by computation, is the identity: at the buffers a called
function's operation reads from an operation outside it (or from the contents before the stretch), and at those it
writes for one. -/

theorem toBuf_v0 (v : (⟨S4194304x11, .f32⟩ : BufTy).Contents (Elt F)) :
    (TRef.of (sig := sig) (T := ⟨S4194304x11, .f32⟩) main_v0).toBuf v = v := rfl
theorem ofBuf_arg0 (v : (Proc.devRef (τ := τ) .tc main_arg0).ty.Contents (Elt F)) :
    (TRef.of (sig := sig) (T := ⟨S4194304x11, .f32⟩) main_arg0).ofBuf v = v := rfl
theorem toBuf_v9 (v : (⟨S4194304, .i32⟩ : BufTy).Contents (Elt F)) :
    (TRef.of (sig := sig) (T := ⟨S4194304, .i32⟩) main_v9).toBuf v = v := rfl
theorem ofBuf_c_3 (v : (Proc.devRef (τ := τ) .tc main_c_3).ty.Contents (Elt F)) :
    (TRef.of (sig := sig) (T := ⟨S_, .i32⟩) main_c_3).ofBuf v = v := rfl
theorem ofBuf_c_2 (v : (Proc.devRef (τ := τ) .tc main_c_2).ty.Contents (Elt F)) :
    (TRef.of (sig := sig) (T := ⟨S_, .i32⟩) main_c_2).ofBuf v = v := rfl
theorem ofBuf_v8 (v : (Proc.devRef (τ := τ) .tc main_v8).ty.Contents (Elt F)) :
    (TRef.of (sig := sig) (T := ⟨S4194304, .i32⟩) main_v8).ofBuf v = v := rfl
theorem toBuf_v12 (v : (⟨S4194304, .i32⟩ : BufTy).Contents (Elt F)) :
    (TRef.of (sig := sig) (T := ⟨S4194304, .i32⟩) main_v12).toBuf v = v := rfl
theorem ofBuf_c_6 (v : (Proc.devRef (τ := τ) .tc main_c_6).ty.Contents (Elt F)) :
    (TRef.of (sig := sig) (T := ⟨S_, .i32⟩) main_c_6).ofBuf v = v := rfl
theorem ofBuf_c_5 (v : (Proc.devRef (τ := τ) .tc main_c_5).ty.Contents (Elt F)) :
    (TRef.of (sig := sig) (T := ⟨S_, .i32⟩) main_c_5).ofBuf v = v := rfl
theorem ofBuf_v11 (v : (Proc.devRef (τ := τ) .tc main_v11).ty.Contents (Elt F)) :
    (TRef.of (sig := sig) (T := ⟨S4194304, .i32⟩) main_v11).ofBuf v = v := rfl
theorem toBuf_call3_v4 (v : (⟨S4194304x3, .i32⟩ : BufTy).Contents (Elt F)) :
    (TRef.of (sig := sig) (T := ⟨S4194304x3, .i32⟩) main_call3_v4).toBuf v = v := rfl
theorem ofBuf_v16 (v : (Proc.devRef (τ := τ) .tc main_v16).ty.Contents (Elt F)) :
    (TRef.of (sig := sig) (T := ⟨S4194304x3, .i32⟩) main_v16).ofBuf v = v := rfl
theorem toBuf_v17 (v : (⟨S4194304x3, .f32⟩ : BufTy).Contents (Elt F)) :
    (TRef.of (sig := sig) (T := ⟨S4194304x3, .f32⟩) main_v17).toBuf v = v := rfl
theorem ofBuf_call3_v5 (v : (Proc.devRef (τ := τ) .tc main_call3_v5).ty.Contents (Elt F)) :
    (TRef.of (sig := sig) (T := ⟨S4194304x3x1, .i32⟩) main_call3_v5).ofBuf v = v := rfl
theorem ofBuf_v0 (v : (Proc.devRef (τ := τ) .tc main_v0).ty.Contents (Elt F)) :
    (TRef.of (sig := sig) (T := ⟨S4194304x11, .f32⟩) main_v0).ofBuf v = v := rfl

/-- A concatenation of three operands: the result with each operand's contents at its own reference, so that each can be
    rewritten to the stage it holds. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-! ## The stretches

The 96 operations cut into nine consecutive lists: before and after each concatenation, and after the reshape of the
three indices, which three later operations read. -/

/-- The log-softmax of the logits: fifteen operations, ending at the write of `main_v0`. -/
abbrev s1 : List (HloOp τ sig (Elt F)) :=
  [ TRef.nullary (TRef.of (T := ⟨S_, .f32⟩) main_call0_cst) (constant S_ .f32 0xFF800000#32),
    TRef.binary (TRef.of (T := ⟨S4194304x11, .f32⟩) main_arg0) (TRef.of (T := ⟨S_, .f32⟩) main_call0_cst) (TRef.of (T := ⟨S4194304, .f32⟩) main_call0_v0) (fun x v => Host.reduce FloatOps.maximumf x v reducesTo_S4194304x11_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x11, .f32⟩) main_call0_v4) (broadcastInDim S4194304x11 ![0, 1] bcast_S4194304x1_S4194304x11_0_1),
    TRef.binary (TRef.of (T := ⟨S4194304x11, .f32⟩) main_arg0) (TRef.of (T := ⟨S4194304x11, .f32⟩) main_call0_v4) (TRef.of (T := ⟨S4194304x11, .f32⟩) main_call0_v5) subf,
    TRef.unary (TRef.of (T := ⟨S4194304x11, .f32⟩) main_call0_v5) (TRef.of (T := ⟨S4194304x11, .f32⟩) main_call0_v6) Host.exp,
    TRef.nullary (TRef.of (T := ⟨S_, .f32⟩) main_call0_cst_1) (constant S_ .f32 0x00000000#32),
    TRef.binary (TRef.of (T := ⟨S4194304x11, .f32⟩) main_call0_v6) (TRef.of (T := ⟨S_, .f32⟩) main_call0_cst_1) (TRef.of (T := ⟨S4194304, .f32⟩) main_call0_v7) (fun x v => Host.reduceAdd x v reducesTo_S4194304x11_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x11, .f32⟩) main_call0_v10) (broadcastInDim S4194304x11 ![0, 1] bcast_S4194304x1_S4194304x11_0_1),
    TRef.binary (TRef.of (T := ⟨S4194304x11, .f32⟩) main_call0_v5) (TRef.of (T := ⟨S4194304x11, .f32⟩) main_call0_v10) (TRef.of (T := ⟨S4194304x11, .f32⟩) main_v0) subf ]

/-- The two side indicators (`main_v3`: the label is above 0; `main_v6`: it is below 10) and the label's left neighbour `main_v9`: the label less one, clipped to 0 … 10. -/
abbrev s2 : List (HloOp τ sig (Elt F)) :=
  [ nullary main_c (constantI S_ 32 0#32),
    unary main_c main_v1 (broadcastInDim S4194304 ![] bcast_S_S4194304 : (⟨S_, .i32⟩ : BufTy).Contents (Elt F) → (⟨S4194304, .i32⟩ : BufTy).Contents (Elt F)),
    binary main_arg1 main_v1 main_v2 (cmpi .sgt : (⟨S4194304, .i32⟩ : BufTy).Contents (Elt F) → (⟨S4194304, .i32⟩ : BufTy).Contents (Elt F) → (⟨S4194304, .i1⟩ : BufTy).Contents (Elt F)),
    unary main_v2 main_v3 (uitofp .f32 : (⟨S4194304, .i1⟩ : BufTy).Contents (Elt F) → (⟨S4194304, .f32⟩ : BufTy).Contents (Elt F)),
    nullary main_c_0 (constantI S_ 32 10#32),
    unary main_c_0 main_v4 (broadcastInDim S4194304 ![] bcast_S_S4194304 : (⟨S_, .i32⟩ : BufTy).Contents (Elt F) → (⟨S4194304, .i32⟩ : BufTy).Contents (Elt F)),
    binary main_arg1 main_v4 main_v5 (cmpi .slt : (⟨S4194304, .i32⟩ : BufTy).Contents (Elt F) → (⟨S4194304, .i32⟩ : BufTy).Contents (Elt F) → (⟨S4194304, .i1⟩ : BufTy).Contents (Elt F)),
    unary main_v5 main_v6 (uitofp .f32 : (⟨S4194304, .i1⟩ : BufTy).Contents (Elt F) → (⟨S4194304, .f32⟩ : BufTy).Contents (Elt F)),
    nullary main_c_1 (constantI S_ 32 1#32),
    unary main_c_1 main_v7 (broadcastInDim S4194304 ![] bcast_S_S4194304 : (⟨S_, .i32⟩ : BufTy).Contents (Elt F) → (⟨S4194304, .i32⟩ : BufTy).Contents (Elt F)),
    binary main_arg1 main_v7 main_v8 (subi : (⟨S4194304, .i32⟩ : BufTy).Contents (Elt F) → (⟨S4194304, .i32⟩ : BufTy).Contents (Elt F) → (⟨S4194304, .i32⟩ : BufTy).Contents (Elt F)),
    nullary main_c_2 (constantI S_ 32 0#32),
    nullary main_c_3 (constantI S_ 32 10#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S4194304, .i32⟩) main_call1_v1) (broadcastInDim S4194304 ![] bcast_S_S4194304),
    TRef.binary (TRef.of (T := ⟨S4194304, .i32⟩) main_call1_v1) (TRef.of (T := ⟨S4194304, .i32⟩) main_v8) (TRef.of (T := ⟨S4194304, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S4194304, .i32⟩) main_call1_v4) (broadcastInDim S4194304 ![] bcast_S_S4194304),
    TRef.binary (TRef.of (T := ⟨S4194304, .i32⟩) main_call1_v4) (TRef.of (T := ⟨S4194304, .i32⟩) main_call1_v2) (TRef.of (T := ⟨S4194304, .i32⟩) main_v9) minsi ]

/-- The label's right neighbour `main_v12` (the label plus one, clipped to 0 … 10), and the three index columns `main_v13`, `main_v14`, `main_v15`: the left neighbour, the label, the right neighbour. -/
abbrev s3 : List (HloOp τ sig (Elt F)) :=
  [ nullary main_c_4 (constantI S_ 32 1#32),
    unary main_c_4 main_v10 (broadcastInDim S4194304 ![] bcast_S_S4194304 : (⟨S_, .i32⟩ : BufTy).Contents (Elt F) → (⟨S4194304, .i32⟩ : BufTy).Contents (Elt F)),
    binary main_arg1 main_v10 main_v11 (addi : (⟨S4194304, .i32⟩ : BufTy).Contents (Elt F) → (⟨S4194304, .i32⟩ : BufTy).Contents (Elt F) → (⟨S4194304, .i32⟩ : BufTy).Contents (Elt F)),
    nullary main_c_5 (constantI S_ 32 0#32),
    nullary main_c_6 (constantI S_ 32 10#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S4194304, .i32⟩) main_call2_v1) (broadcastInDim S4194304 ![] bcast_S_S4194304),
    TRef.binary (TRef.of (T := ⟨S4194304, .i32⟩) main_call2_v1) (TRef.of (T := ⟨S4194304, .i32⟩) main_v11) (TRef.of (T := ⟨S4194304, .i32⟩) main_call2_v2) maxsi,
    TRef.unary (TRef.of (T := ⟨S_, .i32⟩) main_c_6) (TRef.of (T := ⟨S_, .i32⟩) main_call2_v3) id,
    TRef.unary (TRef.of (T := ⟨S_, .i32⟩) main_call2_v3) (TRef.of (T := ⟨S4194304, .i32⟩) main_call2_v4) (broadcastInDim S4194304 ![] bcast_S_S4194304),
    TRef.binary (TRef.of (T := ⟨S4194304, .i32⟩) main_call2_v4) (TRef.of (T := ⟨S4194304, .i32⟩) main_call2_v2) (TRef.of (T := ⟨S4194304, .i32⟩) main_v12) minsi,
    unary main_v9 main_v13 (broadcastInDim S4194304x1 ![0] bcast_S4194304_S4194304x1_0 : (⟨S4194304, .i32⟩ : BufTy).Contents (Elt F) → (⟨S4194304x1, .i32⟩ : BufTy).Contents (Elt F)),
    unary main_arg1 main_v14 (broadcastInDim S4194304x1 ![0] bcast_S4194304_S4194304x1_0 : (⟨S4194304, .i32⟩ : BufTy).Contents (Elt F) → (⟨S4194304x1, .i32⟩ : BufTy).Contents (Elt F)),
    unary main_v12 main_v15 (broadcastInDim S4194304x1 ![0] bcast_S4194304_S4194304x1_0 : (⟨S4194304, .i32⟩ : BufTy).Contents (Elt F) → (⟨S4194304x1, .i32⟩ : BufTy).Contents (Elt F)) ]

/-- The three index columns concatenated: `main_v16`. -/
abbrev s4 : List (HloOp τ sig (Elt F)) :=
  [ nary ![main_v13, main_v14, main_v15] main_v16 (fun u => concatenate S4194304x3 1 [⟨S4194304x1, u 0⟩, ⟨S4194304x1, u 1⟩, ⟨S4194304x1, u 2⟩] concatenates_S4194304x1_S4194304x1_S4194304x1_S4194304x3_d1) ]

/-- The three indices wrapped into range and reshaped for the gather: `main_call3_v5`. -/
abbrev s5 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4194304x3, .i32⟩) main_call3_v0) (broadcastInDim S4194304x3 ![] bcast_S_S4194304x3),
    TRef.binary (TRef.of (T := ⟨S4194304x3, .i32⟩) main_v16) (TRef.of (T := ⟨S4194304x3, .i32⟩) main_call3_v0) (TRef.of (T := ⟨S4194304x3, .i1⟩) main_call3_v1) (cmpi .slt),
    TRef.nullary (TRef.of (T := ⟨S_, .i32⟩) main_call3_c_0) (constantI S_ 32 11#32),
    TRef.unary (TRef.of (T := ⟨S_, .i32⟩) main_call3_c_0) (TRef.of (T := ⟨S4194304x3, .i32⟩) main_call3_v2) (broadcastInDim S4194304x3 ![] bcast_S_S4194304x3),
    TRef.binary (TRef.of (T := ⟨S4194304x3, .i32⟩) main_v16) (TRef.of (T := ⟨S4194304x3, .i32⟩) main_call3_v2) (TRef.of (T := ⟨S4194304x3, .i32⟩) main_call3_v3) addi,
    TRef.ternary (TRef.of (T := ⟨S4194304x3, .i1⟩) main_call3_v1) (TRef.of (T := ⟨S4194304x3, .i32⟩) main_call3_v3) (TRef.of (T := ⟨S4194304x3, .i32⟩) main_v16) (TRef.of (T := ⟨S4194304x3, .i32⟩) main_call3_v4) select,
    TRef.reshape (TRef.of (T := ⟨S4194304x3, .i32⟩) main_call3_v4) (TRef.of (T := ⟨S4194304x3x1, .i32⟩) main_call3_v5) rfl shapeCasts_S4194304x3_S4194304x3x1 ]

/-- The log-probabilities gathered at the three indices, where these are in range: `main_v17`. -/
abbrev s6 : List (HloOp τ sig (Elt F)) :=
  [ TRef.nullary (TRef.of (T := ⟨S1, .i32⟩) main_call3_c_1) (constantI S1 32 10#32),
    TRef.nullary (TRef.of (T := ⟨S_, .i32⟩) main_call3_c_2) (constantI S_ 32 0#32),
    TRef.unary (TRef.of (T := ⟨S_, .i32⟩) main_call3_c_2) (TRef.of (T := ⟨S4194304x3x1, .i32⟩) main_call3_v6) (broadcastInDim S4194304x3x1 ![] bcast_S_S4194304x3x1),
    TRef.binary (TRef.of (T := ⟨S4194304x3x1, .i32⟩) main_call3_v5) (TRef.of (T := ⟨S4194304x3x1, .i32⟩) main_call3_v6) (TRef.of (T := ⟨S4194304x3x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4194304x3x1, .i32⟩) main_call3_v9) (broadcastInDim S4194304x3x1 ![0, 1, 2] bcast_S1x1x1_S4194304x3x1_0_1_2),
    TRef.binary (TRef.of (T := ⟨S4194304x3x1, .i32⟩) main_call3_v5) (TRef.of (T := ⟨S4194304x3x1, .i32⟩) main_call3_v9) (TRef.of (T := ⟨S4194304x3x1, .i1⟩) main_call3_v10) (cmpi .sle),
    TRef.binary (TRef.of (T := ⟨S4194304x3x1, .i1⟩) main_call3_v7) (TRef.of (T := ⟨S4194304x3x1, .i1⟩) main_call3_v10) (TRef.of (T := ⟨S4194304x3x1, .i1⟩) main_call3_v11) andi,
    TRef.nullary (TRef.of (T := ⟨S_, .i1⟩) main_call3_c_3) (constantI S_ 1 1#1),
    TRef.binary (TRef.of (T := ⟨S4194304x3x1, .i1⟩) main_call3_v11) (TRef.of (T := ⟨S_, .i1⟩) main_call3_c_3) (TRef.of (T := ⟨S4194304x3, .i1⟩) main_call3_v12) (fun x v => Host.reduce IntOp.andi x v reducesTo_S4194304x3x1_S4194304x3_d2 h_S_),
    TRef.binary (TRef.of (T := ⟨S4194304x11, .f32⟩) main_v0) (TRef.of (T := ⟨S4194304x3x1, .i32⟩) main_call3_v5) (TRef.of (T := ⟨S4194304x3, .f32⟩) main_call3_v13) (fun x i => Host.gather gather_S4194304x11_S4194304x3x1_S4194304x3_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4194304x3, .f32⟩) main_call3_v14) (broadcastInDim S4194304x3 ![] bcast_S_S4194304x3),
    TRef.ternary (TRef.of (T := ⟨S4194304x3, .i1⟩) main_call3_v12) (TRef.of (T := ⟨S4194304x3, .f32⟩) main_call3_v13) (TRef.of (T := ⟨S4194304x3, .f32⟩) main_call3_v14) (TRef.of (T := ⟨S4194304x3, .f32⟩) main_v17) select ]

/-- The three weight columns `main_v23`, `main_v24`, `main_v25`. -/
abbrev s7 : List (HloOp τ sig (Elt F)) :=
  [ nullary main_cst (constant S_ .f32 0x3E19999A#32),
    unary main_cst main_v18 (broadcastInDim S4194304 ![] bcast_S_S4194304 : (⟨S_, .f32⟩ : BufTy).Contents (Elt F) → (⟨S4194304, .f32⟩ : BufTy).Contents (Elt F)),
    binary main_v18 main_v3 main_v19 (mulf : (⟨S4194304, .f32⟩ : BufTy).Contents (Elt F) → (⟨S4194304, .f32⟩ : BufTy).Contents (Elt F) → (⟨S4194304, .f32⟩ : BufTy).Contents (Elt F)),
    nullary main_cst_7 (constant S_ .f32 0x3F333333#32),
    unary main_cst_7 main_v20 (broadcastInDim S4194304 ![] bcast_S_S4194304 : (⟨S_, .f32⟩ : BufTy).Contents (Elt F) → (⟨S4194304, .f32⟩ : BufTy).Contents (Elt F)),
    nullary main_cst_8 (constant S_ .f32 0x3E19999A#32),
    unary main_cst_8 main_v21 (broadcastInDim S4194304 ![] bcast_S_S4194304 : (⟨S_, .f32⟩ : BufTy).Contents (Elt F) → (⟨S4194304, .f32⟩ : BufTy).Contents (Elt F)),
    binary main_v21 main_v6 main_v22 (mulf : (⟨S4194304, .f32⟩ : BufTy).Contents (Elt F) → (⟨S4194304, .f32⟩ : BufTy).Contents (Elt F) → (⟨S4194304, .f32⟩ : BufTy).Contents (Elt F)),
    unary main_v19 main_v23 (broadcastInDim S4194304x1 ![0] bcast_S4194304_S4194304x1_0 : (⟨S4194304, .f32⟩ : BufTy).Contents (Elt F) → (⟨S4194304x1, .f32⟩ : BufTy).Contents (Elt F)),
    unary main_v20 main_v24 (broadcastInDim S4194304x1 ![0] bcast_S4194304_S4194304x1_0 : (⟨S4194304, .f32⟩ : BufTy).Contents (Elt F) → (⟨S4194304x1, .f32⟩ : BufTy).Contents (Elt F)),
    unary main_v22 main_v25 (broadcastInDim S4194304x1 ![0] bcast_S4194304_S4194304x1_0 : (⟨S4194304, .f32⟩ : BufTy).Contents (Elt F) → (⟨S4194304x1, .f32⟩ : BufTy).Contents (Elt F)) ]

/-- The three weight columns concatenated: `main_v26`. -/
abbrev s8 : List (HloOp τ sig (Elt F)) :=
  [ nary ![main_v23, main_v24, main_v25] main_v26 (fun u => concatenate S4194304x3 1 [⟨S4194304x1, u 0⟩, ⟨S4194304x1, u 1⟩, ⟨S4194304x1, u 2⟩] concatenates_S4194304x1_S4194304x1_S4194304x1_S4194304x3_d1) ]

/-- The weights normalised, the weighted sum of each row, and the mean of the negated sums: `main_v35`. -/
abbrev s9 : List (HloOp τ sig (Elt F)) :=
  [ nullary main_cst_9 (constant S_ .f32 0x00000000#32),
    binary main_v26 main_cst_9 main_v27 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    unary main_v27 main_v28 (broadcastInDim S4194304x1 ![0] bcast_S4194304_S4194304x1_0 : (⟨S4194304, .f32⟩ : BufTy).Contents (Elt F) → (⟨S4194304x1, .f32⟩ : BufTy).Contents (Elt F)),
    unary main_v28 main_v29 (broadcastInDim S4194304x3 ![0, 1] bcast_S4194304x1_S4194304x3_0_1 : (⟨S4194304x1, .f32⟩ : BufTy).Contents (Elt F) → (⟨S4194304x3, .f32⟩ : BufTy).Contents (Elt F)),
    binary main_v26 main_v29 main_v30 (Host.divf : (⟨S4194304x3, .f32⟩ : BufTy).Contents (Elt F) → (⟨S4194304x3, .f32⟩ : BufTy).Contents (Elt F) → (⟨S4194304x3, .f32⟩ : BufTy).Contents (Elt F)),
    binary main_v30 main_v17 main_v31 (mulf : (⟨S4194304x3, .f32⟩ : BufTy).Contents (Elt F) → (⟨S4194304x3, .f32⟩ : BufTy).Contents (Elt F) → (⟨S4194304x3, .f32⟩ : BufTy).Contents (Elt F)),
    nullary main_cst_10 (constant S_ .f32 0x00000000#32),
    binary main_v31 main_cst_10 main_v32 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    unary main_v32 main_v33 (Host.negf : (⟨S4194304, .f32⟩ : BufTy).Contents (Elt F) → (⟨S4194304, .f32⟩ : BufTy).Contents (Elt F)),
    nullary main_cst_11 (constant S_ .f32 0x00000000#32),
    binary main_v33 main_cst_11 main_v34 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_12 (constant S_ .f32 0x4A800000#32),
    binary main_v34 main_cst_12 main_v35 (Host.divf : (⟨S_, .f32⟩ : BufTy).Contents (Elt F) → (⟨S_, .f32⟩ : BufTy).Contents (Elt F) → (⟨S_, .f32⟩ : BufTy).Contents (Elt F)) ]

/-- The operations are the nine stretches in order. -/
theorem ops_eq : ValueP.ops (F := F) = s1 ++ (s2 ++ (s3 ++ (s4 ++ (s5 ++ (s6 ++ (s7 ++ (s8 ++ s9))))))) := rfl

/-- The fold over the operations is the nine stretches' folds, one after the other. -/
theorem after_ops (V : Valuation τ sig (Elt F)) :
    after (ValueP.ops (F := F)) V
      = after s9 (after s8 (after s7 (after s6 (after s5 (after s4 (after s3 (after s2 (after s1 V)))))))) := by
  rw [ops_eq, after_append, after_append, after_append, after_append, after_append, after_append, after_append, after_append]

/-! ## Each stretch, from any contents before it

What the stretch leaves in the buffers later operations read, as stages of the argument arrays whenever the buffers it
reads hold stages; and that it keeps the live buffers it does not write. -/

/-! ### Stretch 1 -/

theorem s1_v0 (W : Valuation τ sig (Elt F)) :
    after (s1 (F := F)) W (Proc.devRef .tc main_v0) = ReadP.val_main_v0 (F := F) (W (Proc.devRef .tc main_arg0)) := by
  after_results
  simp only [ofBuf_toBuf, toBuf_v0, ofBuf_arg0]
  rfl

theorem s1_keeps_arg1 (W : Valuation τ sig (Elt F)) :
    after (s1 (F := F)) W (Proc.devRef .tc main_arg1) = W (Proc.devRef .tc main_arg1) := by
  after_results

/-! ### Stretch 2 -/

theorem s2_v3 (W : Valuation τ sig (Elt F)) :
    after (s2 (F := F)) W (Proc.devRef .tc main_v3) = ReadP.val_main_v3 (F := F) (W (Proc.devRef .tc main_arg1)) := by
  after_results
  rfl

theorem s2_v6 (W : Valuation τ sig (Elt F)) :
    after (s2 (F := F)) W (Proc.devRef .tc main_v6) = ReadP.val_main_v6 (F := F) (W (Proc.devRef .tc main_arg1)) := by
  after_results
  rfl

theorem s2_v9 (W : Valuation τ sig (Elt F)) :
    after (s2 (F := F)) W (Proc.devRef .tc main_v9) = ReadP.val_main_v9 (F := F) (W (Proc.devRef .tc main_arg1)) := by
  after_results
  simp only [ofBuf_toBuf, toBuf_v9, ofBuf_c_3, ofBuf_c_2, ofBuf_v8]
  rfl

theorem s2_keeps_v0 (W : Valuation τ sig (Elt F)) :
    after (s2 (F := F)) W (Proc.devRef .tc main_v0) = W (Proc.devRef .tc main_v0) := by
  after_results

theorem s2_keeps_arg1 (W : Valuation τ sig (Elt F)) :
    after (s2 (F := F)) W (Proc.devRef .tc main_arg1) = W (Proc.devRef .tc main_arg1) := by
  after_results

/-! ### Stretch 3 -/

theorem s3_v13 (W : Valuation τ sig (Elt F)) (x1 : (⟨S4194304, .i32⟩ : BufTy).Contents (Elt F))
    (h_v9 : W (Proc.devRef .tc main_v9) = ReadP.val_main_v9 (F := F) x1) :
    after (s3 (F := F)) W (Proc.devRef .tc main_v13) = ReadP.val_main_v13 (F := F) x1 := by
  after_results
  rw [h_v9]
  rfl

theorem s3_v14 (W : Valuation τ sig (Elt F)) :
    after (s3 (F := F)) W (Proc.devRef .tc main_v14) = ReadP.val_main_v14 (F := F) (W (Proc.devRef .tc main_arg1)) := by
  after_results
  rfl

theorem s3_v15 (W : Valuation τ sig (Elt F)) :
    after (s3 (F := F)) W (Proc.devRef .tc main_v15) = ReadP.val_main_v15 (F := F) (W (Proc.devRef .tc main_arg1)) := by
  after_results
  simp only [ofBuf_toBuf, toBuf_v12, ofBuf_c_6, ofBuf_c_5, ofBuf_v11]
  rfl

theorem s3_keeps_v0 (W : Valuation τ sig (Elt F)) :
    after (s3 (F := F)) W (Proc.devRef .tc main_v0) = W (Proc.devRef .tc main_v0) := by
  after_results

theorem s3_keeps_v3 (W : Valuation τ sig (Elt F)) :
    after (s3 (F := F)) W (Proc.devRef .tc main_v3) = W (Proc.devRef .tc main_v3) := by
  after_results

theorem s3_keeps_v6 (W : Valuation τ sig (Elt F)) :
    after (s3 (F := F)) W (Proc.devRef .tc main_v6) = W (Proc.devRef .tc main_v6) := by
  after_results

/-! ### Stretch 4 -/

theorem s4_v16 (W : Valuation τ sig (Elt F)) (x1 : (⟨S4194304, .i32⟩ : BufTy).Contents (Elt F))
    (h_v13 : W (Proc.devRef .tc main_v13) = ReadP.val_main_v13 (F := F) x1)
    (h_v14 : W (Proc.devRef .tc main_v14) = ReadP.val_main_v14 (F := F) x1)
    (h_v15 : W (Proc.devRef .tc main_v15) = ReadP.val_main_v15 (F := F) x1) :
    after (s4 (F := F)) W (Proc.devRef .tc main_v16) = ReadP.val_main_v16 (F := F) x1 := by
  simp only [after_cons, after_nil]
  rw [nary3_result, h_v13, h_v14, h_v15]
  rfl

theorem s4_keeps_v0 (W : Valuation τ sig (Elt F)) :
    after (s4 (F := F)) W (Proc.devRef .tc main_v0) = W (Proc.devRef .tc main_v0) := by
  after_results

theorem s4_keeps_v3 (W : Valuation τ sig (Elt F)) :
    after (s4 (F := F)) W (Proc.devRef .tc main_v3) = W (Proc.devRef .tc main_v3) := by
  after_results

theorem s4_keeps_v6 (W : Valuation τ sig (Elt F)) :
    after (s4 (F := F)) W (Proc.devRef .tc main_v6) = W (Proc.devRef .tc main_v6) := by
  after_results

/-! ### Stretch 5 -/

theorem s5_call3_v5 (W : Valuation τ sig (Elt F)) (x1 : (⟨S4194304, .i32⟩ : BufTy).Contents (Elt F))
    (h_v16 : W (Proc.devRef .tc main_v16) = ReadP.val_main_v16 (F := F) x1) :
    after (s5 (F := F)) W (Proc.devRef .tc main_call3_v5) = ReadP.val_main_call3_v5 (F := F) x1 := by
  after_results
  simp only [ofBuf_toBuf, toBuf_call3_v4, ofBuf_v16]
  rw [h_v16]
  rfl

theorem s5_keeps_v0 (W : Valuation τ sig (Elt F)) :
    after (s5 (F := F)) W (Proc.devRef .tc main_v0) = W (Proc.devRef .tc main_v0) := by
  after_results

theorem s5_keeps_v3 (W : Valuation τ sig (Elt F)) :
    after (s5 (F := F)) W (Proc.devRef .tc main_v3) = W (Proc.devRef .tc main_v3) := by
  after_results

theorem s5_keeps_v6 (W : Valuation τ sig (Elt F)) :
    after (s5 (F := F)) W (Proc.devRef .tc main_v6) = W (Proc.devRef .tc main_v6) := by
  after_results

/-! ### Stretch 6 -/

theorem s6_v17 (W : Valuation τ sig (Elt F)) (x0 : (⟨S4194304x11, .f32⟩ : BufTy).Contents (Elt F)) (x1 : (⟨S4194304, .i32⟩ : BufTy).Contents (Elt F))
    (h_v0 : W (Proc.devRef .tc main_v0) = ReadP.val_main_v0 (F := F) x0)
    (h_call3_v5 : W (Proc.devRef .tc main_call3_v5) = ReadP.val_main_call3_v5 (F := F) x1) :
    after (s6 (F := F)) W (Proc.devRef .tc main_v17) = ReadP.val_main_v17 (F := F) x0 x1 := by
  after_results
  simp only [ofBuf_toBuf, toBuf_v17, ofBuf_call3_v5, ofBuf_v0]
  rw [h_v0, h_call3_v5]
  rfl

theorem s6_keeps_v3 (W : Valuation τ sig (Elt F)) :
    after (s6 (F := F)) W (Proc.devRef .tc main_v3) = W (Proc.devRef .tc main_v3) := by
  after_results

theorem s6_keeps_v6 (W : Valuation τ sig (Elt F)) :
    after (s6 (F := F)) W (Proc.devRef .tc main_v6) = W (Proc.devRef .tc main_v6) := by
  after_results

/-! ### Stretch 7 -/

theorem s7_v23 (W : Valuation τ sig (Elt F)) (x1 : (⟨S4194304, .i32⟩ : BufTy).Contents (Elt F))
    (h_v3 : W (Proc.devRef .tc main_v3) = ReadP.val_main_v3 (F := F) x1) :
    after (s7 (F := F)) W (Proc.devRef .tc main_v23) = ReadP.val_main_v23 (F := F) x1 := by
  after_results
  rw [h_v3]
  rfl

theorem s7_v24 (W : Valuation τ sig (Elt F)) :
    after (s7 (F := F)) W (Proc.devRef .tc main_v24) = ReadP.val_main_v24 (F := F) := by
  after_results
  rfl

theorem s7_v25 (W : Valuation τ sig (Elt F)) (x1 : (⟨S4194304, .i32⟩ : BufTy).Contents (Elt F))
    (h_v6 : W (Proc.devRef .tc main_v6) = ReadP.val_main_v6 (F := F) x1) :
    after (s7 (F := F)) W (Proc.devRef .tc main_v25) = ReadP.val_main_v25 (F := F) x1 := by
  after_results
  rw [h_v6]
  rfl

theorem s7_keeps_v17 (W : Valuation τ sig (Elt F)) :
    after (s7 (F := F)) W (Proc.devRef .tc main_v17) = W (Proc.devRef .tc main_v17) := by
  after_results

/-! ### Stretch 8 -/

theorem s8_v26 (W : Valuation τ sig (Elt F)) (x1 : (⟨S4194304, .i32⟩ : BufTy).Contents (Elt F))
    (h_v23 : W (Proc.devRef .tc main_v23) = ReadP.val_main_v23 (F := F) x1)
    (h_v24 : W (Proc.devRef .tc main_v24) = ReadP.val_main_v24 (F := F))
    (h_v25 : W (Proc.devRef .tc main_v25) = ReadP.val_main_v25 (F := F) x1) :
    after (s8 (F := F)) W (Proc.devRef .tc main_v26) = ReadP.val_main_v26 (F := F) x1 := by
  simp only [after_cons, after_nil]
  rw [nary3_result, h_v23, h_v24, h_v25]
  rfl

theorem s8_keeps_v17 (W : Valuation τ sig (Elt F)) :
    after (s8 (F := F)) W (Proc.devRef .tc main_v17) = W (Proc.devRef .tc main_v17) := by
  after_results

/-! ### Stretch 9 -/

theorem s9_v35 (W : Valuation τ sig (Elt F)) (x0 : (⟨S4194304x11, .f32⟩ : BufTy).Contents (Elt F)) (x1 : (⟨S4194304, .i32⟩ : BufTy).Contents (Elt F))
    (h_v17 : W (Proc.devRef .tc main_v17) = ReadP.val_main_v17 (F := F) x0 x1)
    (h_v26 : W (Proc.devRef .tc main_v26) = ReadP.val_main_v26 (F := F) x1) :
    after (s9 (F := F)) W (Proc.devRef .tc main_v35) = ReadP.val_main_v35 (F := F) x0 x1 := by
  after_results
  rw [h_v17, h_v26]
  rfl

/-! ## The chain

From the launch contents `V`, with `x0` the logits and `x1` the labels it holds: after each stretch, every buffer a later
operation reads holds its stage of `x0` and `x1`. -/

/-- After the 96 operations the result buffer holds the last stage of the two argument arrays. -/
theorem after_v35 (V : Valuation τ sig (Elt F)) :
    after (ValueP.ops (F := F)) V (Proc.devRef .tc main_v35)
      = ReadP.val_main_v35 (F := F) (V (Proc.devRef .tc main_arg0)) (V (Proc.devRef .tc main_arg1)) := by
  rw [after_ops]
  -- after the log-softmax
  have a1_v0 := s1_v0 (F := F) V
  have a1_arg1 := s1_keeps_arg1 (F := F) V
  -- after the indicators and the left neighbour
  have a2_v3 := (s2_v3 (F := F) (after s1 V)).trans (congrArg (ReadP.val_main_v3 (F := F)) a1_arg1)
  have a2_v6 := (s2_v6 (F := F) (after s1 V)).trans (congrArg (ReadP.val_main_v6 (F := F)) a1_arg1)
  have a2_v9 := (s2_v9 (F := F) (after s1 V)).trans (congrArg (ReadP.val_main_v9 (F := F)) a1_arg1)
  have a2_v0 := (s2_keeps_v0 (F := F) (after s1 V)).trans a1_v0
  have a2_arg1 := (s2_keeps_arg1 (F := F) (after s1 V)).trans a1_arg1
  -- after the right neighbour and the three columns
  have a3_v13 := s3_v13 (F := F) (after s2 (after s1 V)) _ a2_v9
  have a3_v14 := (s3_v14 (F := F) (after s2 (after s1 V))).trans (congrArg (ReadP.val_main_v14 (F := F)) a2_arg1)
  have a3_v15 := (s3_v15 (F := F) (after s2 (after s1 V))).trans (congrArg (ReadP.val_main_v15 (F := F)) a2_arg1)
  have a3_v0 := (s3_keeps_v0 (F := F) (after s2 (after s1 V))).trans a2_v0
  have a3_v3 := (s3_keeps_v3 (F := F) (after s2 (after s1 V))).trans a2_v3
  have a3_v6 := (s3_keeps_v6 (F := F) (after s2 (after s1 V))).trans a2_v6
  -- after the indices' concatenation
  have a4_v16 := s4_v16 (F := F) (after s3 (after s2 (after s1 V))) _ a3_v13 a3_v14 a3_v15
  have a4_v0 := (s4_keeps_v0 (F := F) (after s3 (after s2 (after s1 V)))).trans a3_v0
  have a4_v3 := (s4_keeps_v3 (F := F) (after s3 (after s2 (after s1 V)))).trans a3_v3
  have a4_v6 := (s4_keeps_v6 (F := F) (after s3 (after s2 (after s1 V)))).trans a3_v6
  -- after the indices' reshape
  have a5_c5 := s5_call3_v5 (F := F) (after s4 (after s3 (after s2 (after s1 V)))) _ a4_v16
  have a5_v0 := (s5_keeps_v0 (F := F) (after s4 (after s3 (after s2 (after s1 V))))).trans a4_v0
  have a5_v3 := (s5_keeps_v3 (F := F) (after s4 (after s3 (after s2 (after s1 V))))).trans a4_v3
  have a5_v6 := (s5_keeps_v6 (F := F) (after s4 (after s3 (after s2 (after s1 V))))).trans a4_v6
  -- after the gather
  have a6_v17 := s6_v17 (F := F) (after s5 (after s4 (after s3 (after s2 (after s1 V))))) _ _ a5_v0 a5_c5
  have a6_v3 := (s6_keeps_v3 (F := F) (after s5 (after s4 (after s3 (after s2 (after s1 V)))))).trans a5_v3
  have a6_v6 := (s6_keeps_v6 (F := F) (after s5 (after s4 (after s3 (after s2 (after s1 V)))))).trans a5_v6
  -- after the weight columns
  have a7_v23 := s7_v23 (F := F) (after s6 (after s5 (after s4 (after s3 (after s2 (after s1 V)))))) _ a6_v3
  have a7_v24 := s7_v24 (F := F) (after s6 (after s5 (after s4 (after s3 (after s2 (after s1 V))))))
  have a7_v25 := s7_v25 (F := F) (after s6 (after s5 (after s4 (after s3 (after s2 (after s1 V)))))) _ a6_v6
  have a7_v17 := (s7_keeps_v17 (F := F) (after s6 (after s5 (after s4 (after s3 (after s2 (after s1 V))))))).trans a6_v17
  -- after the weights' concatenation
  have a8_v26 := s8_v26 (F := F) (after s7 (after s6 (after s5 (after s4 (after s3 (after s2 (after s1 V))))))) _ a7_v23 a7_v24 a7_v25
  have a8_v17 := (s8_keeps_v17 (F := F) (after s7 (after s6 (after s5 (after s4 (after s3 (after s2 (after s1 V)))))))).trans a7_v17
  exact s9_v35 (F := F) (after s8 (after s7 (after s6 (after s5 (after s4 (after s3 (after s2 (after s1 V)))))))) _ _ a8_v17 a8_v26

/-- No operation writes the first argument. -/
theorem after_arg0 (V : Valuation τ sig (Elt F)) :
    after (ValueP.ops (F := F)) V (Proc.devRef .tc main_arg0) = V (Proc.devRef .tc main_arg0) := by
  after_results_simp <;> rfl

/-- No operation writes the second argument. -/
theorem after_arg1 (V : Valuation τ sig (Elt F)) :
    after (ValueP.ops (F := F)) V (Proc.devRef .tc main_arg1) = V (Proc.devRef .tc main_arg1) := by
  after_results_simp <;> rfl

/-- On every device, from any memory with zero counters: every weakly fair execution of the reference terminates with
    the result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = ReadP.val_main_v35 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (after_v35 _), (h c main_arg0).trans (after_arg0 _),
      (h c main_arg1).trans (after_arg1 _)⟩)
    (run_seq ValueP.scopedRefs_eq ValueP.scopedSems_eq defs main (fun _ => ValueP.ops) ValueP.main_eq (fun _ => ValueP.ops_sub) m ρ)

end Cert.ReferenceIdeal.Hand

end
-- ==== Proof.RefValue.lean ====
/-
  The reference's last stage, read at its one index at the ideal instance.

  Stage by stage the reference forms, for every row `b`, the log-softmax of the row's eleven logits, the three clipped
  neighbour indices of the label, the gathered log-probabilities, the three weights normalised by their sum, the negated
  weighted sum; then the sum over all rows divided by the batch size. Read at an index this is `Spec.rTotal` of the row
  formula `Spec.rowR` over `Spec.lsm`.
-/
import proofs.«423973_j14800457302459_2_alg».proof.Proof.RefRead
import proofs.«423973_j14800457302459_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## The log-softmax of a row -/

/-- The logits: 4194304 rows of eleven extended reals. -/
abbrev XLogits := (⟨S4194304x11, .f32⟩ : BufTy).Contents (Elt Ideal)
/-- The labels: one 32-bit word per row. -/
abbrev XLabels := (⟨S4194304, .i32⟩ : BufTy).Contents (Elt Ideal)

/-- Dropping axis 1 of a [4194304, 11] array leaves its rows. -/
theorem red11 : S4194304x11.Reduces [1] S4194304 := by decide

/-- The reference's row maximum is the fold of `max` from minus infinity over the row's eleven logits. -/
theorem call0_v0_at (x0 : XLogits) (b : Fin 4194304) :
    ReadP.val_main_call0_v0 (F := Ideal) x0 (ix1 b) = Spec.rowMax (fun k : Fin 11 => x0 (ix2 b k)) := by
  unfold ReadP.val_main_call0_v0
  rw [Host.reduce_eq_fold_single (FloatOps.maximumf (F := Ideal) (φ := .f32)) x0 _ reducesTo_S4194304x11_S4194304_d1 red11 h_S_ (ix1 b)]
  have hl : (x0 ∘ red11.lift (ix1 b)) = fun k : Fin 11 => x0 (ix2 b k) := by
    funext k
    refine congrArg x0 (funext fun a => Fin.ext ?_)
    match a with
    | ⟨0, _⟩ => rfl
    | ⟨1, _⟩ => rfl
  rw [hl]
  rfl

/-- Minus infinity is below every fold of `max` that starts from it. -/
theorem ninf_le_rowMax (x : Fin 11 → EReal) : Spec.ninf ≤ Spec.rowMax x :=
  (Finset.le_fold_max _).2 (Or.inl le_rfl)

/-- The maximum the reference subtracts: `max` of minus infinity and the row maximum, which is the row maximum. -/
theorem call0_v2_at (x0 : XLogits) (b : Fin 4194304) :
    ReadP.val_main_call0_v2 (F := Ideal) x0 (ix1 b) = Spec.rowMax (fun k : Fin 11 => x0 (ix2 b k)) := by
  rw [ReadP.val_main_call0_v2_apply, ReadP.val_main_call0_v1_apply, ReadP.val_main_call0_cst_0_apply, call0_v0_at]
  exact max_eq_right (ninf_le_rowMax _)

/-- The shifted logit. -/
theorem call0_v5_at (x0 : XLogits) (b : Fin 4194304) (k : Fin 11) :
    ReadP.val_main_call0_v5 (F := Ideal) x0 (ix2 b k)
      = x0 (ix2 b k) - Spec.rowMax (fun k : Fin 11 => x0 (ix2 b k)) := by
  rw [ReadP.val_main_call0_v5_apply, ReadP.val_main_call0_v4_apply, ReadP.val_main_call0_v3_apply]
  have hi : ReadP.idx_main_call0_v3 (ReadP.idx_main_call0_v4 (ix2 b k)) = ix1 b := by
    funext a; match a with | ⟨0, _⟩ => rfl
  rw [hi, call0_v2_at]
  rfl

/-- The sum of the exponentials of the shifted logits of a row. -/
theorem call0_v7_at (x0 : XLogits) (b : Fin 4194304) :
    ReadP.val_main_call0_v7 (F := Ideal) x0 (ix1 b)
      = ∑ k : Fin 11, Ideal.exp (x0 (ix2 b k) - Spec.rowMax (fun k : Fin 11 => x0 (ix2 b k))) := by
  rw [ReadP.val_main_call0_v7_apply, ReadP.val_main_call0_cst_1_apply]
  rw [show FloatOps.ofBits (F := Ideal) .f32 0x00000000#32 = 0 from Ideal.ofBits_zero_f32, zero_add]
  refine Finset.sum_congr rfl fun k _ => ?_
  have hi : ReadP.idx_main_call0_v7 (ix1 b) k = ix2 b k := by
    funext a; match a with | ⟨0, _⟩ => rfl | ⟨1, _⟩ => rfl
  rw [hi, ReadP.val_main_call0_v6_apply, call0_v5_at]
  rfl

/-- The reference's log-softmax at (b, k) is `Spec.lsm` of the row at k. -/
theorem v0_at (x0 : XLogits) (b : Fin 4194304) (k : Fin 11) :
    ReadP.val_main_v0 (F := Ideal) x0 (ix2 b k) = Spec.lsm (fun k : Fin 11 => x0 (ix2 b k)) k := by
  rw [ReadP.val_main_v0_apply, call0_v5_at, ReadP.val_main_call0_v10_apply, ReadP.val_main_call0_v9_apply,
    ReadP.val_main_call0_v8_apply]
  have hi : ReadP.idx_main_call0_v8 (ReadP.idx_main_call0_v10 (ix2 b k)) = ix1 b := by
    funext a; match a with | ⟨0, _⟩ => rfl
  rw [hi, call0_v7_at]
  rfl

/-! ## The label's words -/

/-- "label > 0" as a float. -/
theorem v3_at (x1 : XLabels) (b : Fin 4194304) :
    ReadP.val_main_v3 (F := Ideal) x1 (ix1 b) = Spec.uI (IntOp.cmpi .sgt (x1 (ix1 b)) 0#32) := by
  rw [ReadP.val_main_v3_apply, ReadP.val_main_v2_apply, ReadP.val_main_v1_apply, ReadP.val_main_c_apply]
  rfl

/-- "label < 10" as a float. -/
theorem v6_at (x1 : XLabels) (b : Fin 4194304) :
    ReadP.val_main_v6 (F := Ideal) x1 (ix1 b) = Spec.uI (IntOp.cmpi .slt (x1 (ix1 b)) 10#32) := by
  rw [ReadP.val_main_v6_apply, ReadP.val_main_v5_apply, ReadP.val_main_v4_apply, ReadP.val_main_c_0_apply]
  rfl

/-- The left neighbour's index: label - 1 clipped into 0..10. -/
theorem v9_at (x1 : XLabels) (b : Fin 4194304) :
    ReadP.val_main_v9 (F := Ideal) x1 (ix1 b) = Spec.clipR (IntOp.subi (x1 (ix1 b)) 1#32) := by
  rw [ReadP.val_main_v9_apply, ReadP.val_main_call1_v4_apply, ReadP.val_main_call1_v3_apply, ReadP.val_main_c_3_apply,
    ReadP.val_main_call1_v2_apply, ReadP.val_main_call1_v1_apply, ReadP.val_main_call1_v0_apply, ReadP.val_main_c_2_apply,
    ReadP.val_main_v8_apply, ReadP.val_main_v7_apply, ReadP.val_main_c_1_apply]
  rfl

/-- The right neighbour's index: label + 1 clipped into 0..10. -/
theorem v12_at (x1 : XLabels) (b : Fin 4194304) :
    ReadP.val_main_v12 (F := Ideal) x1 (ix1 b) = Spec.clipR (IntOp.addi (x1 (ix1 b)) 1#32) := by
  rw [ReadP.val_main_v12_apply, ReadP.val_main_call2_v4_apply, ReadP.val_main_call2_v3_apply, ReadP.val_main_c_6_apply,
    ReadP.val_main_call2_v2_apply, ReadP.val_main_call2_v1_apply, ReadP.val_main_call2_v0_apply, ReadP.val_main_c_5_apply,
    ReadP.val_main_v11_apply, ReadP.val_main_v10_apply, ReadP.val_main_c_4_apply]
  rfl

/-! ## Three columns side by side -/

/-- Three [4194304, 1] columns concatenated along axis 1, read at (b, k): column k at (b, 0). -/
theorem concat3_at {α : Type} (y0 y1 y2 : S4194304x1.Idx → α) (b : Fin 4194304) (k : Fin 3) :
    concatenate S4194304x3 1 [⟨S4194304x1, y0⟩, ⟨S4194304x1, y1⟩, ⟨S4194304x1, y2⟩]
        concatenates_S4194304x1_S4194304x1_S4194304x1_S4194304x3_d1 (ix2 b k)
      = (![y0, y1, y2] k) (ix2 b (0 : Fin 1)) := by
  have hi : ∀ b' : Fin S4194304x1.rank, b'.cast (rfl : S4194304x1.rank = S4194304x3.rank) ≠ (1 : Fin S4194304x3.rank) →
      ((ix2 b (0 : Fin 1) : S4194304x1.Idx) b').val = ((ix2 b k : S4194304x3.Idx) (b'.cast rfl)).val := by
    intro b' hb'
    match b' with
    | ⟨0, _⟩ => rfl
    | ⟨1, _⟩ => exact absurd rfl hb'
  fin_cases k
  · exact concatenate_apply_piece (1 : Fin S4194304x3.rank) _ _ (ix2 b 0) 0 (by simp) S4194304x1 y0 rfl rfl 0 rfl
      (ix2 b (0 : Fin 1)) hi rfl
  · exact concatenate_apply_piece (1 : Fin S4194304x3.rank) _ _ (ix2 b 1) 1 (by simp) S4194304x1 y1 rfl rfl 1 rfl
      (ix2 b (0 : Fin 1)) hi rfl
  · exact concatenate_apply_piece (1 : Fin S4194304x3.rank) _ _ (ix2 b 2) 2 (by simp) S4194304x1 y2 rfl rfl 2 rfl
      (ix2 b (0 : Fin 1)) hi rfl

/-! ## The three neighbour indices and the three weights -/

/-- The three neighbour indices of row b, side by side. -/
theorem v16_at (x1 : XLabels) (b : Fin 4194304) (k : Fin 3) :
    ReadP.val_main_v16 (F := Ideal) x1 (ix2 b k) = Spec.idxR (x1 (ix1 b)) k := by
  unfold ReadP.val_main_v16
  rw [concat3_at]
  have h13 : ReadP.idx_main_v13 (ix2 b (0 : Fin 1)) = ix1 b := by funext a; match a with | ⟨0, _⟩ => rfl
  fin_cases k
  · show ReadP.val_main_v13 (F := Ideal) x1 (ix2 b (0 : Fin 1)) = _
    rw [ReadP.val_main_v13_apply, h13, v9_at]; rfl
  · show ReadP.val_main_v14 (F := Ideal) x1 (ix2 b (0 : Fin 1)) = _
    rw [ReadP.val_main_v14_apply]; exact congrArg x1 h13
  · show ReadP.val_main_v15 (F := Ideal) x1 (ix2 b (0 : Fin 1)) = _
    rw [ReadP.val_main_v15_apply]
    rw [show ReadP.idx_main_v15 (ix2 b (0 : Fin 1)) = ix1 b from h13, v12_at]; rfl

/-- The three weights of row b before normalisation, side by side. -/
theorem v26_at (x1 : XLabels) (b : Fin 4194304) (k : Fin 3) :
    ReadP.val_main_v26 (F := Ideal) x1 (ix2 b k) = Spec.wR (x1 (ix1 b)) k := by
  unfold ReadP.val_main_v26
  rw [concat3_at]
  have h23 : ReadP.idx_main_v23 (ix2 b (0 : Fin 1)) = ix1 b := by funext a; match a with | ⟨0, _⟩ => rfl
  fin_cases k
  · show ReadP.val_main_v23 (F := Ideal) x1 (ix2 b (0 : Fin 1)) = _
    rw [ReadP.val_main_v23_apply, h23, ReadP.val_main_v19_apply, ReadP.val_main_v18_apply, ReadP.val_main_cst_apply, v3_at]
    rfl
  · show ReadP.val_main_v24 (F := Ideal) (ix2 b (0 : Fin 1)) = _
    rw [ReadP.val_main_v24_apply, ReadP.val_main_v20_apply, ReadP.val_main_cst_7_apply]
    rfl
  · show ReadP.val_main_v25 (F := Ideal) x1 (ix2 b (0 : Fin 1)) = _
    rw [ReadP.val_main_v25_apply]
    rw [show ReadP.idx_main_v25 (ix2 b (0 : Fin 1)) = ix1 b from h23, ReadP.val_main_v22_apply, ReadP.val_main_v21_apply,
      ReadP.val_main_cst_8_apply, v6_at]
    rfl

/-! ## The gather -/

/-- The index a neighbour is gathered at: a negative one counted from the end. -/
theorem call3_v5_at (x1 : XLabels) (b : Fin 4194304) (k : Fin 3) :
    ReadP.val_main_call3_v5 (F := Ideal) x1 (ix3 b k (0 : Fin 1)) = Spec.normR (Spec.idxR (x1 (ix1 b)) k) := by
  rw [ReadP.val_main_call3_v5_apply]
  have hi : ReadP.idx_main_call3_v5 (ix3 b k (0 : Fin 1)) = ix2 b k := by
    have hk : k.val < 3 := k.isLt
    funext a
    match a with
    | ⟨0, _⟩ => exact Fin.ext (by show ((b.val * 3 + k.val) * 1 + 0) / 3 = b.val; omega)
    | ⟨1, _⟩ => exact Fin.ext (by show ((b.val * 3 + k.val) * 1 + 0) % 3 = k.val; omega)
  rw [hi, ReadP.val_main_call3_v4_apply, ReadP.val_main_call3_v1_apply, ReadP.val_main_call3_v3_apply,
    ReadP.val_main_call3_v0_apply, ReadP.val_main_call3_c_apply, ReadP.val_main_call3_v2_apply,
    ReadP.val_main_call3_c_0_apply, v16_at]
  rfl

/-- Dropping the unit axis 2 of a [4194304, 3, 1] array. -/
theorem red31 : S4194304x3x1.Reduces [2] S4194304x3 := by decide

/-- On one-bit words, `and` with the bit 1 changes nothing. -/
theorem andi_one (x : BitVec 1) : IntOp.andi x 1#1 = x := by revert x; decide

/-- A fold over a one-element axis applies the operation once. -/
theorem fold_fin1 {α : Type} (f : α → α → α) [Std.Commutative f] [Std.Associative f] (init : α) (g : Fin 1 → α) :
    (Finset.univ : Finset (Fin 1)).fold f init g = f (g 0) init := by
  rw [Finset.univ_unique, Finset.fold_singleton]; rfl

/-- Whether the gathered index is in range: the `and`, over the single index component, of the two comparisons. -/
theorem call3_v12_at (x1 : XLabels) (b : Fin 4194304) (k : Fin 3) :
    ReadP.val_main_call3_v12 (F := Ideal) x1 (ix2 b k) = Spec.inbR (Spec.normR (Spec.idxR (x1 (ix1 b)) k)) := by
  unfold ReadP.val_main_call3_v12
  rw [Host.reduce_eq_fold_single (IntOp.andi (w := 1)) _ _ reducesTo_S4194304x3x1_S4194304x3_d2 red31 h_S_ (ix2 b k)]
  refine (fold_fin1 (IntOp.andi (w := 1)) _ _).trans ?_
  have hl : red31.lift (ix2 b k) (0 : Fin 1) = ix3 b k (0 : Fin 1) := by
    funext a
    refine Fin.ext ?_
    match a with
    | ⟨0, _⟩ => rfl
    | ⟨1, _⟩ => rfl
    | ⟨2, _⟩ => rfl
  show IntOp.andi (ReadP.val_main_call3_v11 (F := Ideal) x1 (red31.lift (ix2 b k) (0 : Fin 1))) _ = _
  rw [hl, ReadP.val_main_call3_c_3_apply, andi_one, ReadP.val_main_call3_v11_apply, ReadP.val_main_call3_v7_apply,
    ReadP.val_main_call3_v10_apply, call3_v5_at, ReadP.val_main_call3_v6_apply, ReadP.val_main_call3_c_2_apply,
    ReadP.val_main_call3_v9_apply, ReadP.val_main_call3_v8_apply, ReadP.val_main_call3_c_1_apply]
  rfl

/-- The gather read at (b, k): row b of the operand at the class the index word at (b, k, 0) selects. Axis 0 of the
    operand is a batching axis paired with axis 0 of the indices; axis 1 is collapsed and indexed by the one index
    component, read signed and clamped into 0..10. -/
theorem gather_row_at {α : Type} (y : S4194304x11.Idx → α) (idx : IVec S4194304x3x1 32) (b : Fin 4194304) (k : Fin 3) :
    Host.gather gather_S4194304x11_S4194304x3x1_S4194304x3_n_1_0_0_1_2_11 y idx (ix2 b k)
      = y (ix2 b (Spec.cls (idx (ix3 b k (0 : Fin 1))))) := by
  unfold Host.gather
  congr 1
  funext a
  refine Fin.ext ?_
  show gather_S4194304x11_S4194304x3x1_S4194304x3_n_1_0_0_1_2_11.start (ix2 b k) idx a
      + gather_S4194304x11_S4194304x3x1_S4194304x3_n_1_0_0_1_2_11.batchCoord (ix2 b k) a
      + gather_S4194304x11_S4194304x3x1_S4194304x3_n_1_0_0_1_2_11.offCoord (ix2 b k) a = _
  match a with
  | ⟨0, _⟩ =>
    have hb : (0 : Fin S4194304x11.rank) ∈ gather_S4194304x11_S4194304x3x1_S4194304x3_n_1_0_0_1_2_11.operandBatchingDims :=
      List.mem_singleton.mpr rfl
    rw [show (⟨0, by decide⟩ : Fin S4194304x11.rank) = 0 from rfl]
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    have hnb : (1 : Fin S4194304x11.rank) ∉ gather_S4194304x11_S4194304x3x1_S4194304x3_n_1_0_0_1_2_11.operandBatchingDims :=
      fun h => absurd (List.mem_singleton.mp h) (by decide)
    have hc : (1 : Fin S4194304x11.rank) ∈ gather_S4194304x11_S4194304x3x1_S4194304x3_n_1_0_0_1_2_11.collapsedSliceDims :=
      List.mem_singleton.mpr rfl
    have hm : (1 : Fin S4194304x11.rank) ∈ gather_S4194304x11_S4194304x3x1_S4194304x3_n_1_0_0_1_2_11.startIndexMap :=
      List.mem_singleton.mpr rfl
    rw [show (⟨1, by decide⟩ : Fin S4194304x11.rank) = 1 from rfl]
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S4194304x11_S4194304x3x1_S4194304x3_n_1_0_0_1_2_11.siIdx (ix2 b k)
        ⟨List.idxOf (1 : Fin S4194304x11.rank) gather_S4194304x11_S4194304x3x1_S4194304x3_n_1_0_0_1_2_11.startIndexMap,
          List.idxOf_lt_length_iff.2 hm⟩ = ix3 b k (0 : Fin 1) := by
      funext b'
      refine Fin.ext ?_
      match b' with
      | ⟨0, _⟩ => rfl
      | ⟨1, _⟩ => rfl
      | ⟨2, _⟩ => rfl
    rw [hsi]
    rfl

/-- The gathered log-probability of neighbour k, or the fill word where the index is out of range. -/
theorem v17_at (x0 : XLogits) (x1 : XLabels) (b : Fin 4194304) (k : Fin 3) :
    ReadP.val_main_v17 (F := Ideal) x0 x1 (ix2 b k)
      = Spec.gR (Spec.lsm fun k : Fin 11 => x0 (ix2 b k)) (x1 (ix1 b)) k := by
  rw [ReadP.val_main_v17_apply, call3_v12_at, ReadP.val_main_call3_v14_apply, ReadP.val_main_call3_cst_apply]
  unfold ReadP.val_main_call3_v13
  rw [gather_row_at, call3_v5_at, v0_at]
  rfl

/-! ## One row -/

/-- The sum of a row's three weights. -/
theorem v27_at (x1 : XLabels) (b : Fin 4194304) :
    ReadP.val_main_v27 (F := Ideal) x1 (ix1 b) = Spec.zr + ∑ k : Fin 3, Spec.wR (x1 (ix1 b)) k := by
  rw [ReadP.val_main_v27_apply, ReadP.val_main_cst_9_apply]
  refine congrArg (_ + ·) (Finset.sum_congr rfl fun k _ => ?_)
  have hi : ReadP.idx_main_v27 (ix1 b) k = ix2 b k := by
    funext a; match a with | ⟨0, _⟩ => rfl | ⟨1, _⟩ => rfl
  rw [hi, v26_at]

/-- A normalised weight times the gathered log-probability. -/
theorem v31_at (x0 : XLogits) (x1 : XLabels) (b : Fin 4194304) (k : Fin 3) :
    ReadP.val_main_v31 (F := Ideal) x0 x1 (ix2 b k)
      = Ideal.div (Spec.wR (x1 (ix1 b)) k) (Spec.zr + ∑ k' : Fin 3, Spec.wR (x1 (ix1 b)) k')
          * Spec.gR (Spec.lsm fun k : Fin 11 => x0 (ix2 b k)) (x1 (ix1 b)) k := by
  rw [ReadP.val_main_v31_apply, ReadP.val_main_v30_apply, v26_at, ReadP.val_main_v29_apply, ReadP.val_main_v28_apply]
  have hi : ReadP.idx_main_v28 (ReadP.idx_main_v29 (ix2 b k)) = ix1 b := by
    funext a; match a with | ⟨0, _⟩ => rfl
  rw [hi, v27_at, v17_at]
  rfl

/-- The reference's loss of row b. -/
theorem v33_at (x0 : XLogits) (x1 : XLabels) (b : Fin 4194304) :
    ReadP.val_main_v33 (F := Ideal) x0 x1 (ix1 b)
      = Spec.rowR (Spec.lsm fun k : Fin 11 => x0 (ix2 b k)) (x1 (ix1 b)) := by
  rw [ReadP.val_main_v33_apply, ReadP.val_main_v32_apply, ReadP.val_main_cst_10_apply]
  have hs : ∀ k : Fin 3, ReadP.val_main_v31 (F := Ideal) x0 x1 (ReadP.idx_main_v32 (ix1 b) k)
      = Ideal.div (Spec.wR (x1 (ix1 b)) k) (Spec.zr + ∑ k' : Fin 3, Spec.wR (x1 (ix1 b)) k')
          * Spec.gR (Spec.lsm fun k : Fin 11 => x0 (ix2 b k)) (x1 (ix1 b)) k := by
    intro k
    have hi : ReadP.idx_main_v32 (ix1 b) k = ix2 b k := by
      funext a; match a with | ⟨0, _⟩ => rfl | ⟨1, _⟩ => rfl
    rw [hi, v31_at]
  rw [Finset.sum_congr rfl fun k _ => hs k]
  rfl

/-! ## The batch -/

/-- The reference's result at its one index: the mean over the rows of the reference's row loss. -/
theorem val_v35_apply (x0 : (⟨S4194304x11, .f32⟩ : BufTy).Contents (Elt Ideal)) (x1 : (⟨S4194304, .i32⟩ : BufTy).Contents (Elt Ideal))
    (i : S_.Idx) :
    ReadP.val_main_v35 (F := Ideal) x0 x1 i
      = Spec.rTotal (fun b : Fin 4194304 => Spec.rowR (Spec.lsm fun k : Fin 11 => x0 (ix2 b k)) (x1 (ix1 b))) := by
  rw [ReadP.val_main_v35_apply, ReadP.val_main_v34_apply, ReadP.val_main_cst_11_apply, ReadP.val_main_cst_12_apply]
  have hsum : ∑ j : S4194304.Idx, ReadP.val_main_v33 (F := Ideal) x0 x1 j
      = ∑ b : Fin 4194304, Spec.rowR (Spec.lsm fun k : Fin 11 => x0 (ix2 b k)) (x1 (ix1 b)) := by
    let e : Fin 4194304 ≃ S4194304.Idx :=
      { toFun := fun b => ix1 b, invFun := fun j => j 0, left_inv := fun _ => rfl, right_inv := fun j => (eq_ix1 j).symm }
    exact (Fintype.sum_equiv e _ _ fun b => (v33_at x0 x1 b).symm).symm
  rw [hsum]
  rfl

end Cert.ReferenceIdeal.Hand

end
-- ==== Proof.RowMath.lean ====
/-
  One row of the loss, on labels in range and finite logits: the kernel's row formula and the reference's are one real number.
-/
import proofs.«423973_j14800457302459_2_alg».proof.Proof.Spec

noncomputable section

namespace Cert.Spec

open Idealize.ShloMosaic

/-! ## The float words' values -/

/-- the neighbour weight is a positive real, `10066330 / 2^26` -/
theorem RowMath.wA_pos : ∃ a : ℝ, 0 < a ∧ wA = (a : EReal) := by
  refine ⟨(10066330 : ℝ) / 67108864, by norm_num, ?_⟩
  simp [wA, Ideal.ofBits, Ideal.ieee, -EReal.coe_mul]
  norm_num

/-- the centre weight is a positive real, `11744051 / 2^24` -/
theorem RowMath.wB_pos : ∃ b : ℝ, 0 < b ∧ wB = (b : EReal) := by
  refine ⟨(11744051 : ℝ) / 16777216, by norm_num, ?_⟩
  simp [wB, Ideal.ofBits, Ideal.ieee, -EReal.coe_mul]
  norm_num

/-- the start of the maximum is `⊥` -/
theorem RowMath.ninf_eq : ninf = ⊥ := by
  simp [ninf, Ideal.ofBits, Ideal.ieee]

/-- the zero word is the real `0` -/
theorem RowMath.zr_eq : zr = ((0 : ℝ) : EReal) := by
  simp [zr]

/-! ## A label in range is one of eleven literal words, on which every comparison is decided -/

/-- a word whose signed value lies in `0..10` is the word of a natural number below eleven -/
theorem RowMath.label_cases (t : BitVec 32) (h0 : 0 ≤ t.toInt) (h1 : t.toInt < 11) :
    ∃ n : ℕ, n < 11 ∧ t = BitVec.ofNat 32 n := by
  refine ⟨t.toNat, ?_, by simp⟩
  have h := t.isLt
  rw [BitVec.toInt_eq_toNat_cond] at h0 h1
  split_ifs at h0 h1 <;> omega

/-- class minus label is `-1` exactly at the class just below the label -/
theorem RowMath.cmp_m1 (c : Fin 11) (n : ℕ) (hn : n < 11) :
    IntOp.cmpi .eq (dK c (BitVec.ofNat 32 n)) 4294967295#32 = if c.val + 1 = n then 1#1 else 0#1 := by
  revert c
  interval_cases n <;> decide

/-- class minus label is `0` exactly at the label -/
theorem RowMath.cmp_0 (c : Fin 11) (n : ℕ) (hn : n < 11) :
    IntOp.cmpi .eq (dK c (BitVec.ofNat 32 n)) 0#32 = if c.val = n then 1#1 else 0#1 := by
  revert c
  interval_cases n <;> decide

/-- class minus label is `1` exactly at the class just above the label -/
theorem RowMath.cmp_p1 (c : Fin 11) (n : ℕ) (hn : n < 11) :
    IntOp.cmpi .eq (dK c (BitVec.ofNat 32 n)) 1#32 = if c.val = n + 1 then 1#1 else 0#1 := by
  revert c
  interval_cases n <;> decide

/-- the label has a left neighbour exactly when it is positive -/
theorem RowMath.sgt_word (n : ℕ) (hn : n < 11) :
    IntOp.cmpi .sgt (BitVec.ofNat 32 n) 0#32 = if 0 < n then 1#1 else 0#1 := by
  interval_cases n <;> decide

/-- the label has a right neighbour exactly when it is below ten -/
theorem RowMath.slt_word (n : ℕ) (hn : n < 11) :
    IntOp.cmpi .slt (BitVec.ofNat 32 n) 10#32 = if n < 10 then 1#1 else 0#1 := by
  interval_cases n <;> decide

/-- a label in range is not negative -/
theorem RowMath.sge_word (n : ℕ) (hn : n < 11) :
    IntOp.cmpi .sge (BitVec.ofNat 32 n) 0#32 = 1#1 := by
  interval_cases n <;> decide

/-- the clipped left neighbour of `n` is `n - 1`, truncated at zero -/
theorem RowMath.idx_left (n : ℕ) (hn : n < 11) :
    normR (clipR (IntOp.subi (BitVec.ofNat 32 n) 1#32)) = BitVec.ofNat 32 (n - 1) := by
  interval_cases n <;> decide

/-- an index in range is not counted from the end -/
theorem RowMath.idx_mid (n : ℕ) (hn : n < 11) :
    normR (BitVec.ofNat 32 n) = BitVec.ofNat 32 n := by
  interval_cases n <;> decide

/-- the clipped right neighbour of `n` is `n + 1`, capped at ten -/
theorem RowMath.idx_right (n : ℕ) (hn : n < 11) :
    normR (clipR (IntOp.addi (BitVec.ofNat 32 n) 1#32)) = BitVec.ofNat 32 (min (n + 1) 10) := by
  interval_cases n <;> decide

/-- an index below eleven lies in `0..10` -/
theorem RowMath.inb_word (n : ℕ) (hn : n < 11) : inbR (BitVec.ofNat 32 n) = 1#1 := by
  interval_cases n <;> decide

/-- and selects the class of its own value -/
theorem RowMath.cls_val (n : ℕ) (hn : n < 11) : (cls (BitVec.ofNat 32 n)).val = n := by
  interval_cases n <;> decide

/-- so it is that class -/
theorem RowMath.cls_word (n : ℕ) (hn : n < 11) : cls (BitVec.ofNat 32 n) = ⟨n, hn⟩ :=
  Fin.ext (RowMath.cls_val n hn)

/-! ## Truth values as floats -/

/-- the truth value one, widened and read signed, is the real `1` -/
theorem RowMath.sI_one : sI ((1#1 : BitVec 1).setWidth 32) = ((1 : ℝ) : EReal) := by
  show (((((1#1 : BitVec 1).setWidth 32).toInt : ℤ) : ℝ) : EReal) = _
  have h : ((1#1 : BitVec 1).setWidth 32).toInt = 1 := by decide
  rw [h, Int.cast_one]

/-- the truth value zero, widened and read signed, is the real `0` -/
theorem RowMath.sI_zero : sI ((0#1 : BitVec 1).setWidth 32) = ((0 : ℝ) : EReal) := by
  show (((((0#1 : BitVec 1).setWidth 32).toInt : ℤ) : ℝ) : EReal) = _
  have h : ((0#1 : BitVec 1).setWidth 32).toInt = 0 := by decide
  rw [h, Int.cast_zero]

/-- the truth value one read unsigned is the real `1` -/
theorem RowMath.uI_one : uI (1#1) = ((1 : ℝ) : EReal) := by
  show ((((1#1 : BitVec 1).toNat : ℕ) : ℝ) : EReal) = _
  have h : (1#1 : BitVec 1).toNat = 1 := by decide
  rw [h, Nat.cast_one]

/-- the truth value zero read unsigned is the real `0` -/
theorem RowMath.uI_zero : uI (0#1) = ((0 : ℝ) : EReal) := by
  show ((((0#1 : BitVec 1).toNat : ℕ) : ℝ) : EReal) = _
  have h : (0#1 : BitVec 1).toNat = 0 := by decide
  rw [h, Nat.cast_zero]

/-! ## Finite sums of reals inside the extended reals -/

/-- the embedding of the reals is additive, so it commutes with finite sums -/
theorem RowMath.coe_sum {ι : Type} (s : Finset ι) (f : ι → ℝ) :
    ∑ i ∈ s, ((f i : ℝ) : EReal) = ((∑ i ∈ s, f i : ℝ) : EReal) :=
  (map_sum (⟨⟨Real.toEReal, EReal.coe_zero⟩, EReal.coe_add⟩ : ℝ →+ EReal) f s).symm

/-! ## The weights as reals -/

/-- the left neighbour's weight: none at label 0 -/
def RowMath.wl (a : ℝ) (n : ℕ) : ℝ := a * (if 0 < n then 1 else 0)
/-- the right neighbour's weight: none at label 10 -/
def RowMath.wr (a : ℝ) (n : ℕ) : ℝ := a * (if n < 10 then 1 else 0)
/-- the kernel's weight of class `c` -/
def RowMath.wk (a b : ℝ) (n : ℕ) (c : Fin 11) : ℝ :=
  ((if c.val + 1 = n then a else 0) + (if c.val = n then b else 0)) + (if c.val = n + 1 then a else 0)

/-- the three weights' sum is positive: the centre weight is, the neighbours' are not negative -/
theorem RowMath.wsum_pos {a b : ℝ} (ha0 : 0 < a) (hb0 : 0 < b) (n : ℕ) :
    0 < RowMath.wl a n + b + RowMath.wr a n := by
  unfold RowMath.wl RowMath.wr
  split_ifs <;> simp <;> positivity

/-- the kernel's weight of a class is a real: the three selections are decided by the class's place beside the
    label -/
theorem RowMath.wK_eq {a b : ℝ} (ha : wA = (a : EReal)) (hb : wB = (b : EReal)) (c : Fin 11) (n : ℕ)
    (hn : n < 11) :
    wK c (BitVec.ofNat 32 n) = ((RowMath.wk a b n c : ℝ) : EReal) := by
  unfold wK RowMath.wk
  rw [RowMath.cmp_m1 c n hn, RowMath.cmp_0 c n hn, RowMath.cmp_p1 c n hn, ha, hb, RowMath.zr_eq, EReal.coe_add,
    EReal.coe_add]
  unfold Scalar.select
  congr 1
  · congr 1
    · split_ifs <;> first | rfl | (exfalso; simp_all)
    · split_ifs <;> first | rfl | (exfalso; simp_all)
  · split_ifs <;> first | rfl | (exfalso; simp_all)

/-- the kernel's sum of the weights is the real sum of the three weights -/
theorem RowMath.sumK_eq {a b : ℝ} (ha : wA = (a : EReal)) (hb : wB = (b : EReal)) (n : ℕ) (hn : n < 11) :
    sumK (BitVec.ofNat 32 n) = ((RowMath.wl a n + b + RowMath.wr a n : ℝ) : EReal) := by
  unfold sumK RowMath.wl RowMath.wr
  rw [RowMath.sgt_word n hn, RowMath.slt_word n hn, ha, hb, EReal.coe_add, EReal.coe_add, EReal.coe_mul,
    EReal.coe_mul]
  congr 2
  · congr 1
    split_ifs
    · exact RowMath.sI_one
    · exact RowMath.sI_zero
  · congr 1
    split_ifs
    · exact RowMath.sI_one
    · exact RowMath.sI_zero

/-- the mask of a label in range is `1` -/
theorem RowMath.validK_eq (n : ℕ) (hn : n < 11) : validK (BitVec.ofNat 32 n) = ((1 : ℝ) : EReal) := by
  unfold validK
  rw [RowMath.sge_word n hn]
  exact RowMath.sI_one

/-! ## The kernel's row as a real -/

/-- the kernel's row loss on real log-probabilities: minus the weighted sum, times the reciprocal of the weights'
    sum -/
theorem RowMath.rowK_eq {a b : ℝ} (ha0 : 0 < a) (hb0 : 0 < b) (ha : wA = (a : EReal)) (hb : wB = (b : EReal))
    (l : Fin 11 → ℝ) (n : ℕ) (hn : n < 11) :
    rowK (fun c => ((l c : ℝ) : EReal)) (BitVec.ofNat 32 n)
      = (((0 - ∑ c : Fin 11, RowMath.wk a b n c * l c) * (1 / (RowMath.wl a n + b + RowMath.wr a n)) * 1 : ℝ)
          : EReal) := by
  unfold rowK
  rw [RowMath.sumK_eq ha hb n hn, RowMath.validK_eq n hn, Ideal.div_coe (RowMath.wsum_pos ha0 hb0 n).ne',
    RowMath.zr_eq]
  have hs : ∑ c : Fin 11, wK c (BitVec.ofNat 32 n) * ((l c : ℝ) : EReal)
      = ((∑ c : Fin 11, RowMath.wk a b n c * l c : ℝ) : EReal) := by
    rw [← RowMath.coe_sum]
    refine Finset.sum_congr rfl fun c _ => ?_
    rw [RowMath.wK_eq ha hb c n hn, EReal.coe_mul]
  rw [hs, EReal.coe_mul, EReal.coe_mul, EReal.coe_sub]

/-! ## The reference's row as a real -/

/-- the reference's left weight -/
theorem RowMath.wR_zero {a : ℝ} (ha : wA = (a : EReal)) (n : ℕ) (hn : n < 11) :
    wR (BitVec.ofNat 32 n) 0 = ((RowMath.wl a n : ℝ) : EReal) := by
  show wA * uI (IntOp.cmpi .sgt (BitVec.ofNat 32 n) 0#32) = _
  unfold RowMath.wl
  rw [RowMath.sgt_word n hn, ha, EReal.coe_mul]
  congr 1
  split_ifs
  · exact RowMath.uI_one
  · exact RowMath.uI_zero

/-- the reference's centre weight -/
theorem RowMath.wR_one {b : ℝ} (hb : wB = (b : EReal)) (t : BitVec 32) : wR t 1 = ((b : ℝ) : EReal) := hb

/-- the reference's right weight -/
theorem RowMath.wR_two {a : ℝ} (ha : wA = (a : EReal)) (n : ℕ) (hn : n < 11) :
    wR (BitVec.ofNat 32 n) 2 = ((RowMath.wr a n : ℝ) : EReal) := by
  show wA * uI (IntOp.cmpi .slt (BitVec.ofNat 32 n) 10#32) = _
  unfold RowMath.wr
  rw [RowMath.slt_word n hn, ha, EReal.coe_mul]
  congr 1
  split_ifs
  · exact RowMath.uI_one
  · exact RowMath.uI_zero

/-- the reference gathers the log-probability of the clipped left neighbour, -/
theorem RowMath.gR_zero (lp : Fin 11 → EReal) (n : ℕ) (hn : n < 11) :
    gR lp (BitVec.ofNat 32 n) 0 = lp ⟨n - 1, by omega⟩ := by
  show Scalar.select (inbR (normR (clipR (IntOp.subi (BitVec.ofNat 32 n) 1#32))))
    (lp (cls (normR (clipR (IntOp.subi (BitVec.ofNat 32 n) 1#32))))) nanw = _
  rw [RowMath.idx_left n hn, RowMath.inb_word (n - 1) (by omega), RowMath.cls_word (n - 1) (by omega)]
  rfl

/-- of the label, -/
theorem RowMath.gR_one (lp : Fin 11 → EReal) (n : ℕ) (hn : n < 11) :
    gR lp (BitVec.ofNat 32 n) 1 = lp ⟨n, hn⟩ := by
  show Scalar.select (inbR (normR (BitVec.ofNat 32 n))) (lp (cls (normR (BitVec.ofNat 32 n)))) nanw = _
  rw [RowMath.idx_mid n hn, RowMath.inb_word n hn, RowMath.cls_word n hn]
  rfl

/-- and of the clipped right neighbour: all three indices lie in range, so no fill word is selected -/
theorem RowMath.gR_two (lp : Fin 11 → EReal) (n : ℕ) (hn : n < 11) :
    gR lp (BitVec.ofNat 32 n) 2 = lp ⟨min (n + 1) 10, by omega⟩ := by
  show Scalar.select (inbR (normR (clipR (IntOp.addi (BitVec.ofNat 32 n) 1#32))))
    (lp (cls (normR (clipR (IntOp.addi (BitVec.ofNat 32 n) 1#32))))) nanw = _
  rw [RowMath.idx_right n hn, RowMath.inb_word (min (n + 1) 10) (by omega),
    RowMath.cls_word (min (n + 1) 10) (by omega)]
  rfl

/-- the reference's row loss on real log-probabilities: minus the sum of the three normalised weights times the
    gathered log-probabilities; the normaliser is a non-zero real, so each quotient is a product with its reciprocal -/
theorem RowMath.rowR_eq {a b : ℝ} (ha0 : 0 < a) (hb0 : 0 < b) (ha : wA = (a : EReal)) (hb : wB = (b : EReal))
    (l : Fin 11 → ℝ) (n : ℕ) (hn : n < 11) :
    rowR (fun c => ((l c : ℝ) : EReal)) (BitVec.ofNat 32 n)
      = ((-(0 + ((RowMath.wl a n * (1 / (0 + (RowMath.wl a n + b + RowMath.wr a n))) * l ⟨n - 1, by omega⟩
            + b * (1 / (0 + (RowMath.wl a n + b + RowMath.wr a n))) * l ⟨n, hn⟩)
            + RowMath.wr a n * (1 / (0 + (RowMath.wl a n + b + RowMath.wr a n))) * l ⟨min (n + 1) 10, by omega⟩))
          : ℝ) : EReal) := by
  unfold rowR
  have hD : (0 : ℝ) + (RowMath.wl a n + b + RowMath.wr a n) ≠ 0 := by
    have := RowMath.wsum_pos ha0 hb0 n
    linarith
  rw [Fin.sum_univ_three, Fin.sum_univ_three, RowMath.wR_zero ha n hn, RowMath.wR_one hb, RowMath.wR_two ha n hn,
    RowMath.gR_zero _ n hn, RowMath.gR_one _ n hn, RowMath.gR_two _ n hn, RowMath.zr_eq,
    ← EReal.coe_add, ← EReal.coe_add, ← EReal.coe_add, Ideal.div_coe hD, Ideal.div_coe hD, Ideal.div_coe hD]
  simp only [← EReal.coe_mul, ← EReal.coe_add, ← EReal.coe_neg]

/-- the kernel's eleven weights meet the row at the label's neighbours only -/
theorem RowMath.kernel_sum (a b : ℝ) (l : Fin 11 → ℝ) (n : ℕ) (hn : n < 11) :
    ∑ c : Fin 11, RowMath.wk a b n c * l c
      = (RowMath.wl a n * l ⟨n - 1, by omega⟩ + b * l ⟨n, hn⟩)
          + RowMath.wr a n * l ⟨min (n + 1) 10, by omega⟩ := by
  interval_cases n <;> simp [RowMath.wk, RowMath.wl, RowMath.wr, Fin.sum_univ_succ] <;> ring

/-! ## The log-softmax of a finite row -/

/-- a maximum of finitely many reals folded from `⊥` is `⊥` (over no terms) or a real -/
theorem RowMath.fold_max_real (r : Fin 11 → ℝ) (s : Finset (Fin 11)) :
    s.fold max (⊥ : EReal) (fun k => ((r k : ℝ) : EReal)) = ⊥
      ∨ ∃ m : ℝ, s.fold max (⊥ : EReal) (fun k => ((r k : ℝ) : EReal)) = (m : EReal) := by
  induction s using Finset.cons_induction with
  | empty => exact Or.inl rfl
  | cons k s hk ih =>
    right
    rw [Finset.fold_cons]
    rcases ih with h | ⟨m, h⟩
    · exact ⟨r k, by rw [h, max_bot_right]⟩
    · exact ⟨max (r k) m, by rw [h]; exact (EReal.coe_strictMono.monotone.map_max).symm⟩

/-- the maximum of a row of eleven reals is a real: it is at least the first of them, so it is not `⊥` -/
theorem RowMath.rowMax_real (r : Fin 11 → ℝ) :
    ∃ m : ℝ, rowMax (fun k => ((r k : ℝ) : EReal)) = (m : EReal) := by
  unfold rowMax
  rw [RowMath.ninf_eq]
  rcases RowMath.fold_max_real r Finset.univ with h | h
  · exfalso
    have h0 : ((r 0 : ℝ) : EReal) ≤ Finset.univ.fold max (⊥ : EReal) (fun k => ((r k : ℝ) : EReal)) :=
      (Finset.le_fold_max _).mpr (Or.inr ⟨0, Finset.mem_univ 0, le_rfl⟩)
    rw [h] at h0
    exact EReal.coe_ne_bot (r 0) (le_bot_iff.mp h0)
  · exact h

/-! ## The three statements -/

/-- The log-softmax of a row of finite logits is finite: the row's maximum is one of the logits, every shifted exponential
    is a positive real, so their sum is a positive real and its logarithm a real. -/
theorem lsm_real (x : Fin 11 → EReal) (hx : ∀ k, ∃ r : ℝ, x k = (r : EReal)) :
    ∀ c, ∃ r : ℝ, lsm x c = (r : EReal) := by
  choose r hr using hx
  obtain rfl : x = fun k => ((r k : ℝ) : EReal) := funext hr
  obtain ⟨m, hm⟩ := RowMath.rowMax_real r
  intro c
  unfold lsm
  rw [hm]
  have hs : ∑ k : Fin 11, Ideal.exp (((r k : ℝ) : EReal) - (m : EReal))
      = ((∑ k : Fin 11, Real.exp (r k - m) : ℝ) : EReal) := by
    rw [← RowMath.coe_sum]
    refine Finset.sum_congr rfl fun k _ => ?_
    rw [← EReal.coe_sub, Ideal.exp_coe]
  have hpos : 0 < ∑ k : Fin 11, Real.exp (r k - m) :=
    Finset.sum_pos (fun k _ => Real.exp_pos _) Finset.univ_nonempty
  rw [hs, Ideal.log_coe, if_neg (not_le.mpr hpos), ← EReal.coe_sub, ← EReal.coe_sub]
  exact ⟨_, rfl⟩

/-- On a label `0 ≤ t < 11` and finite log-probabilities the kernel's row loss is the reference's: the kernel's eleven weights
    are zero but at `t - 1`, `t`, `t + 1` (those of them that are classes), where they are the reference's three weights at
    its clipped neighbours (a clipped neighbour that is no true neighbour has weight zero); the weights' sum is the same;
    and dividing the weighted sum by the weights' sum is weighting by the normalised weights, the sum being a non-zero real. -/
theorem rowK_eq_rowR (lp : Fin 11 → EReal) (hlp : ∀ c, ∃ r : ℝ, lp c = (r : EReal)) (t : BitVec 32)
    (h0 : 0 ≤ t.toInt) (h1 : t.toInt < 11) : rowK lp t = rowR lp t := by
  obtain ⟨n, hn, rfl⟩ := RowMath.label_cases t h0 h1
  obtain ⟨a, ha0, ha⟩ := RowMath.wA_pos
  obtain ⟨b, hb0, hb⟩ := RowMath.wB_pos
  choose l hl using hlp
  obtain rfl : lp = fun c => ((l c : ℝ) : EReal) := funext hl
  rw [RowMath.rowK_eq ha0 hb0 ha hb l n hn, RowMath.rowR_eq ha0 hb0 ha hb l n hn,
    RowMath.kernel_sum a b l n hn]
  congr 1
  ring

/-- and it is a real number. -/
theorem rowR_real (lp : Fin 11 → EReal) (hlp : ∀ c, ∃ r : ℝ, lp c = (r : EReal)) (t : BitVec 32)
    (h0 : 0 ≤ t.toInt) (h1 : t.toInt < 11) : ∃ r : ℝ, rowR lp t = (r : EReal) := by
  obtain ⟨n, hn, rfl⟩ := RowMath.label_cases t h0 h1
  obtain ⟨a, ha0, ha⟩ := RowMath.wA_pos
  obtain ⟨b, hb0, hb⟩ := RowMath.wB_pos
  choose l hl using hlp
  obtain rfl : lp = fun c => ((l c : ℝ) : EReal) := funext hl
  exact ⟨_, RowMath.rowR_eq ha0 hb0 ha hb l n hn⟩

end Cert.Spec

end
-- ==== Proof.TotalMath.lean ====
/-
  The batch: 64 blocks' sums, each divided by the batch size and added up core by core, against one sum over all rows divided
  once — equal for real row losses.
-/
import proofs.«423973_j14800457302459_2_alg».proof.Proof.Spec
import Idealize.ShloMosaic.PureOps.Ideal
import Idealize.ShloMosaic.PureOps.Ideal.Laws
import Mathlib.Data.EReal.Basic
import Mathlib.Data.Fintype.BigOperators
import Mathlib.Algebra.BigOperators.Fin
import Mathlib.Algebra.BigOperators.Group.Finset.Basic

noncomputable section

namespace Cert.Spec

open Idealize.ShloMosaic

/-- The coercion of a finite sum of reals is the sum of the coercions. -/
private theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The batch-size word denotes a non-zero real (it is 2^23 · 2^(149 - 127 - 23) = 2^22). -/
private theorem nB_real : ∃ y : ℝ, y ≠ 0 ∧ nB = (y : EReal) := by
  refine ⟨4194304, by norm_num, ?_⟩
  simp [Ideal.ofBits, Ideal.ieee]
  rw [← EReal.coe_mul]
  norm_num

/-- Block number and row within the block index the rows of the batch bijectively: every row number b is
    65536 · (b / 65536) + b % 65536 with b / 65536 < 64, in exactly one way. -/
private theorem rowIx_bijective : Function.Bijective (fun p : Fin 64 × Fin 65536 => rowIx p.1.val p.2) := by
  constructor
  · rintro ⟨a, q⟩ ⟨b, r⟩ h
    have h' := congrArg Fin.val h
    simp only [rowIx] at h'
    have ha := a.isLt; have hb := b.isLt; have hq := q.isLt; have hr := r.isLt
    refine Prod.ext (Fin.ext ?_) (Fin.ext ?_) <;> simp only <;> omega
  · intro b
    have hb := b.isLt
    refine ⟨(⟨b.val / 65536, by omega⟩, ⟨b.val % 65536, by omega⟩), Fin.ext ?_⟩
    simp only [rowIx]
    omega

/-- In the reals: the sum over all rows is the sum over the first 32 blocks plus the sum over the last 32 blocks, each
    block summed over its 65536 rows. -/
private theorem real_sum_blocks (g : Fin 4194304 → ℝ) :
    ∑ b : Fin 4194304, g b
      = ∑ s ∈ Finset.range 32, ∑ q : Fin 65536, g (rowIx s q)
        + ∑ s ∈ Finset.range 32, ∑ q : Fin 65536, g (rowIx (32 + s) q) := by
  rw [← rowIx_bijective.sum_comp g, Fintype.sum_prod_type]
  rw [Fin.sum_univ_eq_sum_range (fun n => ∑ q : Fin 65536, g (rowIx n q)) 64]
  exact Finset.sum_range_add _ 32 32

/-- For real row losses the kernel's blockwise total is the reference's mean: the rows are the disjoint union of 64 blocks
    of 65536, and division by the non-zero real batch size distributes over finite sums of reals. -/
theorem kTotal_eq_rTotal (f : Fin 4194304 → EReal) (hf : ∀ b, ∃ r : ℝ, f b = (r : EReal)) : kTotal f = rTotal f := by
  -- real values of the row losses, the real batch size, and the real zero
  choose g hg using hf
  obtain ⟨y, hy, hnB⟩ := nB_real
  have hz : zr = ((0 : ℝ) : EReal) := by rw [EReal.coe_zero]; exact Ideal.ofBits_zero_f32
  -- a block's contribution is the coercion of its real sum times 1/y
  have hblock : ∀ n : ℕ, blockTerm f n = (((∑ q : Fin 65536, g (rowIx n q)) * (1 / y) : ℝ) : EReal) := by
    intro n
    rw [blockTerm, hnB, Ideal.div_coe hy, EReal.coe_mul, coe_finset_sum]
    simp only [hg]
  -- both totals are coercions of reals
  have hk : kTotal f = (((0 + ∑ s ∈ Finset.range 32, (∑ q : Fin 65536, g (rowIx s q)) * (1 / y))
      + (0 + ∑ s ∈ Finset.range 32, (∑ q : Fin 65536, g (rowIx (32 + s) q)) * (1 / y)) : ℝ) : EReal) := by
    rw [kTotal, hz]
    simp only [hblock]
    rw [EReal.coe_add, EReal.coe_add, EReal.coe_add, coe_finset_sum, coe_finset_sum]
  have hr : rTotal f = (((0 + ∑ b : Fin 4194304, g b) * (1 / y) : ℝ) : EReal) := by
    rw [rTotal, hnB, Ideal.div_coe hy, hz, EReal.coe_mul, EReal.coe_add, coe_finset_sum]
    simp only [hg]
  -- the identity in the reals
  rw [hk, hr, real_sum_blocks g]
  congr 1
  rw [← Finset.sum_mul, ← Finset.sum_mul]
  ring

end Cert.Spec

end
-- ==== Proof.PreFacts.lean ====
/-
  The precondition, decoded: every logit is a real number and every label lies in 0..10.

  The printed precondition is the conjunction of two whole-array conjunctions: `|x| < +∞` at every logit, and
  `0 ≤ t ∧ t < 11` (signed) at every label. That it evaluates to true says each holds at every index; an extended real whose
  absolute value is below `+∞` is neither infinity, hence a real.
-/
import proofs.«423973_j14800457302459_2_alg».proof.Pre_finite_inputs
import Idealize.ShloMosaic.PureOps.Ideal
import Idealize.ShloMosaic.PureOps.Ideal.Laws
import Idealize.ShloMosaic.Lib.Affine
import Idealize.ShloMosaic.Lib.ReduceAll
import Idealize.ShloMosaic.Lib.StableHlo.Predicate
import Idealize.ShloMosaic.Lib.ValueIdx
import Mathlib.Data.EReal.Basic

noncomputable section

namespace Cert.PreHand

open Idealize.ShloMosaic Cert.Pre_finite_inputs

variable [Cert.Pre_finite_inputs.Facts]

/-- The scalar shape has a single index. -/
private theorem subsingleton_scalarIdx : Subsingleton S_.Idx := ⟨fun a b => funext fun d => d.elim0⟩

/-- The word 0x7F800000 is plus infinity: exponent field all ones, fraction zero, sign clear. -/
private theorem ofBits_posInf : Ideal.ofBits .f32 0x7F800000#32 = (⊤ : EReal) := by
  simp [Ideal.ofBits, Ideal.ieee]

/-- An extended real whose absolute value max x (-x) lies below plus infinity is a real number: at either infinity the
    maximum is plus infinity. -/
private theorem real_of_abs_lt_top (x : EReal) (hx : max x (-x) < ⊤) : ∃ r : ℝ, x = (r : EReal) := by
  induction x using EReal.rec with
  | bot => simp at hx
  | coe r => exact ⟨r, rfl⟩
  | top => simp at hx

/-- Where the precondition holds, the logits are real numbers and the labels are class indices. -/
theorem pre_decode (x0 : FVec Ideal S4194304x11 .f32) (x1 : IVec S4194304 32)
    (h : Cert.Pre_finite_inputs.fn (F := Ideal) x0 x1 = fun _ => 1#1) :
    (∀ i : S4194304x11.Idx, ∃ r : ℝ, x0 i = (r : EReal)) ∧ (∀ j : S4194304.Idx, 0 ≤ (x1 j).toInt ∧ (x1 j).toInt < 11) := by
  have h0 := congrFun h ValueIdx.ix0
  dsimp only [Cert.Pre_finite_inputs.fn] at h0
  haveI := subsingleton_scalarIdx
  -- the final conjunction: both whole-array conjunctions are true
  obtain ⟨hA, hB⟩ := IntOp.andi_eq_one.1 h0
  constructor
  · -- the logits: |x| < +∞ at every index
    intro i
    have hi := Host.reduce_andi_all _ _ _ _ _ hA i
    have hi' : Ideal.cmp .olt (max (x0 i) (-(x0 i))) (Ideal.ofBits .f32 0x7F800000#32) = 1#1 := hi
    rw [ofBits_posInf] at hi'
    simp only [Ideal.cmp, StableHlo.Predicate.ofBool_eq_one_iff, decide_eq_true_eq] at hi'
    exact real_of_abs_lt_top _ hi'
  · -- the labels: 0 ≤ t and t < 11, signed, at every index
    intro j
    have hj := Host.reduce_andi_all _ _ _ _ _ hB j
    obtain ⟨h1, h2⟩ := IntOp.andi_eq_one.1 hj
    have h1' : IntOp.cmpi .sge (x1 j) 0#32 = 1#1 := h1
    have h2' : IntOp.cmpi .slt (x1 j) 11#32 = 1#1 := h2
    have e0 : (0#32 : BitVec 32).toInt = 0 := by decide
    have e11 : (11#32 : BitVec 32).toInt = 11 := by decide
    have g1 := IntOp.cmpi_sge.1 h1'
    have g2 := IntOp.cmpi_slt.1 h2'
    rw [e0] at g1
    rw [e11] at g2
    exact ⟨g1, g2⟩

end Cert.PreHand

end
-- ==== Proof.lean ====
/-
  A label-smoothed cross-entropy over 4194304 rows of eleven classes: the kernel against its reference, over the extended reals.

  Each row's loss is the negated sum of three neighbouring log-probabilities (of the label's class and its two neighbours,
  where they exist) weighted by fixed weights normalised by their sum; the result is the mean over the rows. The reference
  gathers the three log-probabilities at clipped indices and normalises the weights first. The kernel works on the transposed
  logits in 64 blocks of 65536 rows over two cores: it forms the weights over all eleven classes by comparing the class index
  with the label, divides the weighted sum by the weights' sum, adds each block's sum divided by the batch size onto a
  per-core accumulator, and the host adds the two cores' totals.

  The claim holds where every logit is finite and every label lies in 0..10 (outside that range the reference's gather is out
  of range or counts from the end, and the kernel masks negative labels): there the log-probabilities are real numbers, the
  two row formulas are one real number (`Spec.rowK_eq_rowR`), and the blockwise total is the mean (`Spec.kTotal_eq_rTotal`).
  The kernel's run is read off its frame run (`KernelIdeal.Hand.kernel_run`), the reference's is computed stage by stage
  (`ReferenceIdeal.Hand.run`, `val_v35_apply`); the idealization rewrote nothing, so `preserves` is trivial.
-/
import proofs.«423973_j14800457302459_2_alg».proof.Defs
import proofs.«423973_j14800457302459_2_alg».proof.Proof.Gen.Kernel
import proofs.«423973_j14800457302459_2_alg».proof.Proof.Gen.Kernel.Frame
import proofs.«423973_j14800457302459_2_alg».proof.Proof.Gen.KernelIdeal
import proofs.«423973_j14800457302459_2_alg».proof.Proof.Gen.KernelIdeal.Frame
import proofs.«423973_j14800457302459_2_alg».proof.Proof.Gen.ReferenceIdeal
import proofs.«423973_j14800457302459_2_alg».proof.Proof.Gen.Pre_finite_inputs
import proofs.«423973_j14800457302459_2_alg».proof.Proof.KFinal
import proofs.«423973_j14800457302459_2_alg».proof.Proof.RefRun
import proofs.«423973_j14800457302459_2_alg».proof.Proof.RefValue
import proofs.«423973_j14800457302459_2_alg».proof.Proof.RowMath
import proofs.«423973_j14800457302459_2_alg».proof.Proof.TotalMath
import proofs.«423973_j14800457302459_2_alg».proof.Proof.PreFacts
import Idealize.ShloMosaic.Adequacy
import Idealize.ShloMosaic.Init

noncomputable section

namespace Cert.Proof

open Idealize.ShloMosaic Idealize.ShloMosaic.ValueIdx Idealize.SL.Sem

/-- Where the precondition holds the kernel's blockwise total of its row losses is the reference's mean of its own: the
    logits are real, so each row's log-probabilities are; the labels are class indices, so the two row formulas agree and are
    real; and for real row losses the two totals agree. -/
theorem totals_agree (x0 : FVec Ideal Cert.Pre_finite_inputs.S4194304x11 .f32) (x1 : IVec Cert.Pre_finite_inputs.S4194304 32)
    (hpre : Cert.Pre_finite_inputs.fn (F := Ideal) x0 x1 = fun _ => 1#1) :
    Spec.kTotal (fun b : Fin 4194304 => Spec.rowK (Spec.lsm fun k : Fin 11 => x0 (ix2 b k)) (x1 (ix1 b)))
      = Spec.rTotal (fun b : Fin 4194304 => Spec.rowR (Spec.lsm fun k : Fin 11 => x0 (ix2 b k)) (x1 (ix1 b))) := by
  obtain ⟨hx, ht⟩ := Cert.PreHand.pre_decode x0 x1 hpre
  have hlp : ∀ b : Fin 4194304, ∀ c, ∃ r : ℝ, Spec.lsm (fun k : Fin 11 => x0 (ix2 b k)) c = (r : EReal) :=
    fun b => Spec.lsm_real _ fun k => hx (ix2 b k)
  have hrow : ∀ b : Fin 4194304, Spec.rowK (Spec.lsm fun k : Fin 11 => x0 (ix2 b k)) (x1 (ix1 b))
      = Spec.rowR (Spec.lsm fun k : Fin 11 => x0 (ix2 b k)) (x1 (ix1 b)) :=
    fun b => Spec.rowK_eq_rowR _ (hlp b) _ (ht (ix1 b)).1 (ht (ix1 b)).2
  rw [show (fun b : Fin 4194304 => Spec.rowK (Spec.lsm fun k : Fin 11 => x0 (ix2 b k)) (x1 (ix1 b)))
      = fun b : Fin 4194304 => Spec.rowR (Spec.lsm fun k : Fin 11 => x0 (ix2 b k)) (x1 (ix1 b)) from funext hrow]
  exact Spec.kTotal_eq_rTotal _ fun b => Spec.rowR_real _ (hlp b) _ (ht (ix1 b)).1 (ht (ix1 b)).2

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the mean over the rows of the reference's row loss of the arguments. -/
theorem algebraic : Cert.algebraic_KernelIdeal_ReferenceIdeal := by
  intro m ρ m' ρ' hpre hagree
  refine ⟨fun c _ => Spec.rTotal (fun b : Fin 4194304 =>
      Spec.rowR (Spec.lsm fun k : Fin 11 => (m ((c.tc : Thread Cert.KernelIdeal.nD Cert.KernelIdeal.τ).loc Cert.KernelIdeal.main_arg0)) (ix2 b k))
        ((m ((c.tc : Thread Cert.KernelIdeal.nD Cert.KernelIdeal.τ).loc Cert.KernelIdeal.main_arg1)) (ix1 b))), ?_, ?_⟩
  · refine (θ_run Cert.KernelIdeal.defs _ _).mono (fun _ h c => ⟨(h c).1.trans (funext fun _ => ?_), (h c).2.1, (h c).2.2⟩)
      (Cert.KernelIdeal.Hand.kernel_run m ρ)
    exact totals_agree _ _ (hpre c)
  · refine (θ_run Cert.ReferenceIdeal.defs _ _).mono (fun _ h c => ⟨(h c).1.trans ?_, (h c).2.1, (h c).2.2⟩)
      (Cert.ReferenceIdeal.Hand.run (F := Ideal) m' ρ')
    rw [(hagree c).1, (hagree c).2]
    funext i
    exact Cert.ReferenceIdeal.Hand.val_v35_apply _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
